-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x16 .f32) (main_arg11 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x1600000 32) (main_arg2 : FVec F S32x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x32 : Shape := ⟨2, ![5000, 32]⟩
abbrev S5000x128 : Shape := ⟨2, ![5000, 128]⟩
abbrev S1x128 : Shape := ⟨2, ![1, 128]⟩
abbrev S1600000x128 : Shape := ⟨2, ![1600000, 128]⟩
abbrev S5000x1 : Shape := ⟨2, ![5000, 1]⟩
abbrev S100000x16 : Shape := ⟨2, ![100000, 16]⟩
abbrev S5000x16 : Shape := ⟨2, ![5000, 16]⟩
abbrev S1x16 : Shape := ⟨2, ![1, 16]⟩

abbrev nBuf : Space → Nat
  | .hbm => 59
  | .vmem => 34
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x16, .f32⟩
  | .local _ .vmem, ⟨31, _⟩ => ⟨S16, .f32⟩
  | .local _ .vmem, ⟨32, _⟩ => ⟨S5000x16, .f32⟩
  | .local _ .vmem, ⟨33, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16.size a ≤ S16.size a
  hwx3_2 : ∀ i : grid3.Coords, EltTy.bits .f32 = 32 ∨ (Rect.block (s := S16) S16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 92
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Spec.lean ====
/-
  The mathematics of the graph network, stated once over extended-real arrays and independent of either program.

  Nodes carry feature rows; an edge `e` has a source row `srcRow sidx e` (the start word read signed and clamped
  into the node range) and a destination word `didx e`; the edges INTO node `n` are those whose destination word,
  read signed, is `n` (`inEdges`). A layer adds, for each node, the mean over its in-edges of the source rows
  times a relation matrix, the node's own row times a root matrix and a bias, and clips below at zero.

  Two arrangements of that layer are stated: `convSum` multiplies the summed source rows by the reciprocal of the
  clipped in-degree and then by the relation matrix; `convMsg` multiplies every source row by the relation matrix,
  sums the products over the in-edges and divides by the clipped in-degree. Over real entries they agree, because
  a finite sum commutes with a product by a constant and with another finite sum (`convMsg_eq_convSum`).
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- A rank-2 array of extended reals. -/
abbrev Arr2 (a b : Nat) := (⟨2, ![a, b]⟩ : Shape).Idx → EReal
/-- A rank-1 array of extended reals. -/
abbrev Arr1 (a : Nat) := (⟨1, ![a]⟩ : Shape).Idx → EReal
/-- A column of 32-bit index words, one per edge. -/
abbrev EdgeWords (E : Nat) := (⟨2, ![E, 1]⟩ : Shape).Idx → BitVec 32

/-- `x · W + b`, row by row. -/
def affine {N K M : Nat} (x : Arr2 N K) (W : Arr2 K M) (b : Arr1 M) : Arr2 N M :=
  fun i => (∑ k : Fin K, x (ix2 (i 0) k) * W (ix2 k (i 1))) + b (ix1 (i 1))

/-- The edges whose destination word, read signed, is node `n`. -/
def inEdges {E : Nat} (didx : EdgeWords E) (n : Nat) : Finset (Fin E) :=
  Finset.univ.filter fun e => (didx (ix2 e 0)).toInt = (n : Int)

/-- The row an edge reads: its source word read signed, clamped into `[0, N − 1]`. -/
def srcRow {E : Nat} (N : Nat) (hN : 0 < N) (sidx : EdgeWords E) (e : Fin E) : Fin N :=
  ⟨min (sidx (ix2 e 0)).toInt.toNat (N - 1), by omega⟩

/-- The clipped in-degree of node `n`: the number of its in-edges, at least one. -/
def degClip {E : Nat} (didx : EdgeWords E) (n : Nat) : EReal :=
  max (∑ _e ∈ inEdges didx n, (1 : EReal)) 1

/-- The sum over a node's in-edges of the source rows. -/
def aggSum {N E D : Nat} (hN : 0 < N) (h : Arr2 N D) (sidx didx : EdgeWords E) : Arr2 N D :=
  fun i => ∑ e ∈ inEdges didx (i 0).val, h (ix2 (srcRow N hN sidx e) (i 1))

/-- The reciprocal of the clipped in-degree, as a column. -/
def invDeg {N E : Nat} (didx : EdgeWords E) : Arr2 N 1 :=
  fun i => Ideal.div 1 (degClip didx (i 0).val)

/-- A layer from the summed source rows `g`, the reciprocal column `inv` and the node rows `h`. -/
def convSum {N D : Nat} (g h : Arr2 N D) (inv : Arr2 N 1) (Wrel Wroot : Arr2 D D) (b : Arr1 D) : Arr2 N D :=
  fun i => max (((∑ k : Fin D, (g (ix2 (i 0) k) * inv (ix2 (i 0) 0)) * Wrel (ix2 k (i 1)))
      + ∑ k : Fin D, h (ix2 (i 0) k) * Wroot (ix2 k (i 1))) + b (ix1 (i 1))) 0

/-- A layer with the relation matrix applied per edge, the products summed and divided by the clipped in-degree. -/
def convMsg {N E D : Nat} (hN : 0 < N) (h : Arr2 N D) (sidx didx : EdgeWords E) (Wrel Wroot : Arr2 D D) (b : Arr1 D) :
    Arr2 N D :=
  fun i => max (((Ideal.div (∑ e ∈ inEdges didx (i 0).val, ∑ k : Fin D, h (ix2 (srcRow N hN sidx e) k) * Wrel (ix2 k (i 1)))
        (degClip didx (i 0).val))
      + ∑ k : Fin D, h (ix2 (i 0) k) * Wroot (ix2 k (i 1))) + b (ix1 (i 1))) 0

/-- Every entry is a real number. -/
def AllReal {ι : Type} (f : ι → EReal) : Prop := ∀ i, ∃ r : ℝ, f i = (r : EReal)

end Cert.Gnn

end
-- ==== Proof.SpecLaws.lean ====
/-
  Laws of the specification: real entries stay real through every stage of the network, and over real entries the
  two arrangements of a graph layer agree.
-/
import proofs.«115833_j5841155522636_1_alg».proof.Proof.Spec
import Mathlib.Data.EReal.Basic
import Mathlib.Algebra.BigOperators.Ring.Finset
import Mathlib.Order.MinMax

noncomputable section

namespace Cert.Gnn

open Idealize.ShloMosaic Idealize.ShloMosaic.ValueIdx

/-! ### Real numbers inside the extended reals are closed under the operations of the network -/

/-- The inclusion of the reals commutes with finite sums. -/
theorem coe_sum_real {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- The inclusion of the reals commutes with the maximum of two numbers. -/
theorem coe_max_real (a b : ℝ) : ((max a b : ℝ) : EReal) = max (a : EReal) (b : EReal) :=
  EReal.coe_strictMono.monotone.map_max

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The maximum of a real and zero is a real. -/
theorem real_max_zero {a : EReal} (ha : ∃ r : ℝ, a = (r : EReal)) : ∃ r : ℝ, max a 0 = (r : EReal) := by
  obtain ⟨r, rfl⟩ := ha
  exact ⟨max r 0, by rw [coe_max_real, EReal.coe_zero]⟩

/-- A finite sum of reals is a real. -/
theorem real_sum {ι : Type} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum_real]; exact Finset.sum_congr rfl fun i _ => hg i⟩

/-! ### The clipped in-degree is a real number, at least one -/

/-- The clipped in-degree as a real number. -/
def degReal {E : Nat} (didx : EdgeWords E) (n : Nat) : ℝ :=
  max (∑ _e ∈ inEdges didx n, (1 : ℝ)) 1

theorem degClip_eq {E : Nat} (didx : EdgeWords E) (n : Nat) : degClip didx n = (degReal didx n : EReal) := by
  rw [degClip, degReal, coe_max_real, coe_sum_real, EReal.coe_one]

theorem degReal_ne_zero {E : Nat} (didx : EdgeWords E) (n : Nat) : degReal didx n ≠ 0 :=
  (lt_of_lt_of_le one_pos (le_max_right _ _)).ne'

/-- Dividing by the clipped in-degree is multiplying by a real number. -/
theorem div_degClip {E : Nat} (didx : EdgeWords E) (n : Nat) (x : EReal) :
    Ideal.div x (degClip didx n) = x * ((1 / degReal didx n : ℝ) : EReal) := by
  rw [degClip_eq, Ideal.div_coe (degReal_ne_zero didx n)]

/-! ### Real entries stay real -/

/-- `x · W + b` of real arrays is real. -/
theorem AllReal.affine {N K M : Nat} {x : Arr2 N K} {W : Arr2 K M} {b : Arr1 M}
    (hx : AllReal x) (hW : AllReal W) (hb : AllReal b) : AllReal (affine x W b) := by
  intro i
  exact real_add (real_sum _ fun k => real_mul (hx _) (hW _)) (hb _)

/-- The in-edge sums of real rows are real. -/
theorem AllReal.aggSum {N E D : Nat} (hN : 0 < N) {h : Arr2 N D} (hh : AllReal h) (sidx didx : EdgeWords E) :
    AllReal (aggSum hN h sidx didx) := by
  intro i
  exact real_sum _ fun e => hh _

/-- The reciprocal of the clipped in-degree is real: the in-degree is a natural number and the clip keeps it at least one. -/
theorem AllReal.invDeg {N E : Nat} (didx : EdgeWords E) : AllReal (invDeg (N := N) didx) := by
  intro i
  exact ⟨1 * (1 / degReal didx (i 0).val), by
    rw [EReal.coe_mul, EReal.coe_one]; exact div_degClip didx (i 0).val 1⟩

/-- A layer of real arrays is real. -/
theorem AllReal.convSum {N D : Nat} {g h : Arr2 N D} {inv : Arr2 N 1} {Wrel Wroot : Arr2 D D} {b : Arr1 D}
    (hg : AllReal g) (hh : AllReal h) (hinv : AllReal inv) (hWrel : AllReal Wrel) (hWroot : AllReal Wroot)
    (hb : AllReal b) : AllReal (convSum g h inv Wrel Wroot b) := by
  intro i
  exact real_max_zero (real_add (real_add
    (real_sum _ fun k => real_mul (real_mul (hg _) (hinv _)) (hWrel _))
    (real_sum _ fun k => real_mul (hh _) (hWroot _))) (hb _))

/-! ### The two arrangements of a layer agree -/

/-- Over the reals, a sum over edges of row-times-matrix products, times a constant, is the row of edge sums
    times that constant, times the matrix. -/
theorem sum_edges_mul_real {ι κ : Type} (S : Finset ι) (T : Finset κ) (u : ι → κ → ℝ) (w : κ → ℝ) (c : ℝ) :
    (∑ e ∈ S, ∑ k ∈ T, u e k * w k) * c = ∑ k ∈ T, ((∑ e ∈ S, u e k) * (1 * c)) * w k := by
  rw [Finset.sum_comm, Finset.sum_mul]
  refine Finset.sum_congr rfl fun k _ => ?_
  rw [← Finset.sum_mul]
  ring

/-- Over real node rows and a real relation matrix, applying the matrix per edge and dividing the sum by the
    clipped in-degree is multiplying the summed rows by its reciprocal and then by the matrix: finite sums of
    reals commute with each other and with a constant factor. -/
theorem convMsg_eq_convSum {N E D : Nat} (hN : 0 < N) {h : Arr2 N D} (hh : AllReal h) (sidx didx : EdgeWords E)
    {Wrel : Arr2 D D} (hW : AllReal Wrel) (Wroot : Arr2 D D) (b : Arr1 D) :
    convMsg hN h sidx didx Wrel Wroot b = convSum (aggSum hN h sidx didx) h (invDeg didx) Wrel Wroot b := by
  choose h' hh' using hh
  choose W' hW' using hW
  funext i
  have key : Ideal.div (∑ e ∈ inEdges didx (i 0).val, ∑ k : Fin D, h (ix2 (srcRow N hN sidx e) k) * Wrel (ix2 k (i 1)))
        (degClip didx (i 0).val)
      = ∑ k : Fin D, ((∑ e ∈ inEdges didx (i 0).val, h (ix2 (srcRow N hN sidx e) k))
          * Ideal.div 1 (degClip didx (i 0).val)) * Wrel (ix2 k (i 1)) := by
    simp only [div_degClip, hh', hW', ← EReal.coe_one, ← EReal.coe_mul, ← coe_sum_real]
    rw [sum_edges_mul_real]
  exact congrArg (fun t => max ((t + ∑ k : Fin D, h (ix2 (i 0) k) * Wroot (ix2 k (i 1))) + b (ix1 (i 1))) 0) key

end Cert.Gnn

end
-- ==== Proof.RegionEmbed.lean ====
/- The embedding region: the array its twenty row blocks leave is `x · W + b` of the arrays it finds. -/
import proofs.«115833_j5841155522636_1_alg».proof.Proof.Gen.KernelIdeal.Frame
import proofs.«115833_j5841155522636_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block's arithmetic at an entry -/

/-- Two zero offsets, however spelt. -/
theorem zeroOffsets2 : (![0, 0] : Fin 2 → Nat) = fun _ => 0 :=
  funext fun a => by match a with | ⟨0, _⟩ => rfl | ⟨1, _⟩ => rfl

/-- One zero offset, however spelt. -/
theorem zeroOffset1 : (![0] : Fin 1 → Nat) = fun _ => 0 :=
  funext fun a => by match a with | ⟨0, _⟩ => rfl

/-- The product's left operand is read on its row axis at the output's row. -/
theorem embedDot_lhs_row (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

/-- The product's left operand is read on its column axis at the summation index. -/
theorem embedDot_lhs_sum (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

/-- The product's right operand is read on its row axis at the summation index. -/
theorem embedDot_rhs_sum (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

/-- The product's right operand is read on its column axis at the output's column. -/
theorem embedDot_rhs_col (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The block's matrix product into a zero accumulator, at entry `(p, q)`, is the sum over the 32 features. -/
theorem embedMatmul_apply (a : FVec Ideal S5000x32 .bf16) (b : FVec Ideal S32x128 .bf16) (p : Fin 5000) (q : Fin 128) :
    matmul dot_S5000x32_S32x128_S5000x128_1_0_0_1_n_n none a b (constant (F := Ideal) S5000x128 .f32 0x00000000#32) (ix2 p q)
      = ∑ k : Fin 32, a (ix2 p k) * b (ix2 k q) := by
  show FloatOps.matmul dot_S5000x32_S32x128_S5000x128_1_0_0_1_n_n none a b (constant (F := Ideal) S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun a => Fin.ext (by
    match a with
    | ⟨0, _⟩ => exact embedDot_lhs_row _ _
    | ⟨1, _⟩ => exact (embedDot_lhs_sum _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun a => Fin.ext (by
    match a with
    | ⟨0, _⟩ => exact (embedDot_rhs_sum _ _).trans hk
    | ⟨1, _⟩ => exact embedDot_rhs_col _ _)
  rw [el, er]

/-- The body's result at entry `(p, q)` of a block: the row of the node block times the column of the weights, plus the bias. -/
theorem embedPayload_apply (x0 : Vec Ideal S5000x32 .f32) (x1 : Vec Ideal S32x128 .f32) (x2 : Vec Ideal S128 .f32)
    (p : Fin 5000) (q : Fin 128) :
    k0_pay1 x0 x1 x2 (ix2 p q) = (∑ k : Fin 32, x0 (ix2 p k) * x1 (ix2 k q)) + x2 (ix1 q) := by
  unfold k0_pay1
  refine (addf_apply _ _ (ix2 p q)).trans ?_
  refine congrArg₂ (· + ·) ?_ ?_
  · exact embedMatmul_apply _ _ p q
  · refine (broadcastTo_1b_ab_apply _ _ p q).trans ?_
    exact shapeCast_a_1a_apply x2 _ 0 q

/-- The same at any index of the block. -/
theorem embedPayload_at (x0 : Vec Ideal S5000x32 .f32) (x1 : Vec Ideal S32x128 .f32) (x2 : Vec Ideal S128 .f32)
    (j : S5000x128.Idx) :
    k0_pay1 x0 x1 x2 j = (∑ k : Fin 32, x0 (ix2 (j 0) k) * x1 (ix2 k (j 1))) + x2 (ix1 (j 1)) := by
  obtain ⟨p, q, rfl⟩ : ∃ (p : Fin 5000) (q : Fin 128), j = ix2 p q := ⟨j 0, j 1, eq_ix2 j⟩
  exact embedPayload_apply x0 x1 x2 p q

/-- A block's entry is the whole-array `x · W + b` at an array index, once each operand entry the block reads is the
    array entry that index names. -/
theorem embedPoint_eq (x0 : Vec Ideal S5000x32 .f32) (x1 : Vec Ideal S32x128 .f32) (x2 : Vec Ideal S128 .f32)
    (X : Cert.Gnn.Arr2 100000 32) (W : Cert.Gnn.Arr2 32 128) (b : Cert.Gnn.Arr1 128)
    (j : S5000x128.Idx) (i : S100000x128.Idx)
    (hx : ∀ k : Fin 32, x0 (ix2 (j 0) k) = X (ix2 (i 0) k))
    (hw : ∀ k : Fin 32, x1 (ix2 k (j 1)) = W (ix2 k (i 1)))
    (hb : x2 (ix1 (j 1)) = b (ix1 (i 1))) :
    k0_pay1 x0 x1 x2 j = Cert.Gnn.affine X W b i := by
  rw [embedPayload_at]
  unfold Cert.Gnn.affine
  rw [hb]
  exact congrArg (· + b (ix1 (i 1))) (Finset.sum_congr rfl fun k _ => by rw [hx k, hw k])

/-! ## From the twenty blocks to the array -/

/-- The printed index maps over the grid: the node rows and the output rows move with the point, block `t` at point `t`;
    the weights and the bias stay at block zero. -/
theorem embedIndex_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `x · W + b` of the arrays the region finds. -/
theorem embedBlock_eq (c : Dev nD) (t : Fin cfg0.N) :
    (dat0 (F := Ideal) V c).flushed 3 t = ((cfg0.win 3).blk t).view.read (Elt Ideal)
      (Cert.Gnn.affine (N := 100000) (K := 32) (M := 128) (V c main_arg0) (V c main_arg2) (V c main_arg3)) := by
  show (cfg0.win 3).cut (grid0.coords t) ((dat0 (F := Ideal) V c).after 3 t) = _
  rw [after0_3]
  unfold out0_3
  rw [View.canon_unit_zero zeroOffsets2]
  simp only [View.ld_unit_zero (S := S5000x32) zeroOffsets2, View.ld_unit_zero (S := S32x128) zeroOffsets2,
    View.ld_unit_zero (S := S128) zeroOffset1]
  obtain ⟨e00, e01, e10, e11, e20, e30, e31⟩ := embedIndex_facts t
  funext j
  show k0_pay1 (iblk0 V c 0 t) (iblk0 V c 1 t) (iblk0 V c 2 t) j
    = Cert.Gnn.affine (N := 100000) (K := 32) (M := 128) (V c main_arg0) (V c main_arg2) (V c main_arg3) (((cfg0.win 3).blk t).view.emb j)
  refine embedPoint_eq (iblk0 V c 0 t) (iblk0 V c 1 t) (iblk0 V c 2 t) (V c main_arg0) (V c main_arg2) (V c main_arg3) j
    (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 32 + 1 * k.val = k.val; omega
  · show V c main_arg2 (((cfg0.win 1).blk t).view.emb (ix2 k (j 1))) = V c main_arg2 (ix2 k ((((cfg0.win 3).blk t).view.emb j) 1))
    refine congrArg (V c main_arg2) (funext fun a => Fin.ext ?_)
    match a with
    | ⟨0, _⟩ => show win0_1.index t (0 : Fin 2) * 32 + 1 * k.val = k.val; omega
    | ⟨1, _⟩ => show win0_1.index t (1 : Fin 2) * 128 + 1 * (j 1).val = win0_3.index t (1 : Fin 2) * 128 + 1 * (j 1).val; omega
  · show V c main_arg3 (((cfg0.win 2).blk t).view.emb (ix1 (j 1))) = V c main_arg3 (ix1 ((((cfg0.win 3).blk t).view.emb j) 1))
    refine congrArg (V c main_arg3) (funext fun a => Fin.ext ?_)
    match a with
    | ⟨0, _⟩ => show win0_2.index t (0 : Fin 1) * 128 + 1 * (j 1).val = win0_3.index t (1 : Fin 2) * 128 + 1 * (j 1).val; omega

/-- An index of the output array is in point `t`'s block iff each coordinate is in the block's range on its axis. -/
theorem mem_embedBlock (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Every row is in the block of the point `row / 5000`: twenty blocks of 5000 rows fill the 100000 rows. -/
theorem embedBlocks_cover (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  refine ⟨t, flush0_3 t, ?_⟩
  rw [mem_embedBlock]
  obtain ⟨-, -, -, -, -, e30, e31⟩ := embedIndex_facts t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the embedding region the output array is `x · W + b` of the three arrays the region reads, row by row. -/
theorem embed_array (c : Dev nD) :
    (dat0 (F := Ideal) V c).arrAt 3 cfg0.N
      = Cert.Gnn.affine (N := 100000) (K := 32) (M := 128) (V c main_arg0) (V c main_arg2) (V c main_arg3) :=
  (dat0 (F := Ideal) V c).arrAt_eq_of_cover 3 _ (fun t _ => embedBlock_eq V c t) embedBlocks_cover

end Cert.KernelIdeal.RegionValue

end
-- ==== Proof.RegionConv1.lean ====
/- The first graph layer's region: the array its twenty row blocks leave is the layer (`convSum`) of the arrays it finds. -/
import proofs.«115833_j5841155522636_1_alg».proof.Proof.Gen.KernelIdeal.Frame
import proofs.«115833_j5841155522636_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The offsets `(0, 0)` are zero on every axis. -/
theorem offsets_zero2 : (![0, 0] : Fin 2 → Nat) = fun _ => 0 := funext fun a => by fin_cases a <;> rfl

/-- The offset `(0)` is zero on its axis. -/
theorem offsets_zero1 : (![0] : Fin 1 → Nat) = fun _ => 0 := funext fun a => by fin_cases a <;> rfl

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block product is read at the output's row … -/
theorem blockDot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted coordinate on its second axis; -/
theorem blockDot_lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate on its first axis … -/
theorem blockDot_rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem blockDot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128]` block times a `[128, 128]` matrix, accumulated from zero: entry `(p, q)` is the sum over `k` of
    the block's `(p, k)` times the matrix's `(k, q)`. -/
theorem blockDot_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockDot_lhs_row _ _
    | ⟨1, _⟩ => exact (blockDot_lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockDot_rhs_contr _ _).trans hk
    | ⟨1, _⟩ => exact blockDot_rhs_col _ _)
  rw [el, er]

/-- The body's result at row `p`, column `q` of a block: the summed rows scaled by the row's reciprocal times the relation
    matrix, plus the node rows times the root matrix, plus the bias, clipped below at zero. -/
theorem layer_block_apply (g : Vec Ideal S5000x128 .f32) (r : Vec Ideal S5000x1 .f32) (h : Vec Ideal S5000x128 .f32)
    (Wrel Wroot : Vec Ideal S128x128 .f32) (b : Vec Ideal S128 .f32) (p : Fin 5000) (q : Fin 128) :
    k1_pay1 g r h Wrel Wroot b (ix2 p q)
      = max (((∑ k : Fin 128, (g (ix2 p k) * r (ix2 p (0 : Fin 1))) * Wrel (ix2 k q))
          + ∑ k : Fin 128, h (ix2 p k) * Wroot (ix2 k q)) + b (ix1 q)) 0 := by
  unfold k1_pay1
  have zero_word : (FloatOps.ofBits (F := Ideal) FTy.f32 0x00000000#32) = (0 : EReal) := Ideal.ofBits_zero_f32
  rw [maximumf_apply, addf_apply, addf_apply, blockDot_apply, blockDot_apply, broadcast_apply, zero_word,
    broadcastTo_1b_ab_apply, shapeCast_a_1a_apply]
  simp only [truncf_apply, mulf_apply, shapeCast_self, broadcastTo_column_apply]

/-- The block index maps, decided over the twenty points: the three row-tiled inputs and the output sit at block row
    `t`, column block `0`; the two matrices and the bias stay at block `0`. -/
theorem block_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Block `t` of the summed source rows at `(p, k)` is the array at row `5000 t + p`. -/
theorem summed_block_apply (c : Dev nD) (t : Fin cfg1.N) (p : Fin 5000) (k : Fin 128) (n : Fin 100000)
    (hn : n.val = t.val * 5000 + p.val) :
    (iblk1 (F := Ideal) V c 0 t : Vec Ideal S5000x128 .f32) (ix2 p k) = (V c main_v23 : S100000x128.Idx → EReal) (ix2 n k) := by
  obtain ⟨e0, e1, -⟩ := block_index_facts t
  show V c main_v23 (((cfg1.win 0).blk t).view.emb (ix2 p k)) = _
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Block `t` of the node rows at `(p, k)` is the array at row `5000 t + p`. -/
theorem node_block_apply (c : Dev nD) (t : Fin cfg1.N) (p : Fin 5000) (k : Fin 128) (n : Fin 100000)
    (hn : n.val = t.val * 5000 + p.val) :
    (iblk1 (F := Ideal) V c 1 t : Vec Ideal S5000x128 .f32) (ix2 p k) = (V c main_v13 : S100000x128.Idx → EReal) (ix2 n k) := by
  obtain ⟨-, -, e0, e1, -⟩ := block_index_facts t
  show V c main_v13 (((cfg1.win 1).blk t).view.emb (ix2 p k)) = _
  refine congrArg _ (funext fun a => Fin.ext ?_)
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- Block `t` of the reciprocal column at `(p, 0)` is the column at row `5000 t + p`. -/
theorem recip_block_apply (c : Dev nD) (t : Fin cfg1.N) (p : Fin 5000) (n : Fin 100000)
    (hn : n.val = t.val * 5000 + p.val) :
    (iblk1 (F := Ideal) V c 2 t : Vec Ideal S5000x1 .f32) (ix2 p (0 : Fin 1)) = (V c main_v12 : S100000x1.Idx → EReal) (ix2 n (0 : Fin 1)) := by
  obtain ⟨-, -, -, -, e0, e1, -⟩ := block_index_facts t
  show V c main_v12 (((cfg1.win 2).blk t).view.emb (ix2 p (0 : Fin 1))) = _
  refine congrArg _ (funext fun a => Fin.ext ?_)
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- The relation matrix's one block is the matrix. -/
theorem rel_block_apply (c : Dev nD) (t : Fin cfg1.N) (k q : Fin 128) :
    (iblk1 (F := Ideal) V c 3 t : Vec Ideal S128x128 .f32) (ix2 k q) = (V c main_arg4 : S128x128.Idx → EReal) (ix2 k q) := by
  obtain ⟨-, -, -, -, -, -, e0, e1, -⟩ := block_index_facts t
  show V c main_arg4 (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The root matrix's one block is the matrix. -/
theorem root_block_apply (c : Dev nD) (t : Fin cfg1.N) (k q : Fin 128) :
    (iblk1 (F := Ideal) V c 4 t : Vec Ideal S128x128 .f32) (ix2 k q) = (V c main_arg5 : S128x128.Idx → EReal) (ix2 k q) := by
  obtain ⟨-, -, -, -, -, -, -, -, e0, e1, -⟩ := block_index_facts t
  show V c main_arg5 (((cfg1.win 4).blk t).view.emb (ix2 k q)) = _
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias's one block is the bias. -/
theorem bias_block_apply (c : Dev nD) (t : Fin cfg1.N) (q : Fin 128) :
    (iblk1 (F := Ideal) V c 5 t : Vec Ideal S128 .f32) (ix1 q) = (V c main_arg6 : S128.Idx → EReal) (ix1 q) := by
  obtain ⟨-, -, -, -, -, -, -, -, -, -, e0, -⟩ := block_index_facts t
  show V c main_arg6 (((cfg1.win 5).blk t).view.emb (ix1 q)) = _
  refine congrArg _ (funext fun a => Fin.ext ?_)
  match a with
  | ⟨0, _⟩ => show win1_5.index t (0 : Fin 1) * 128 + 1 * q.val = q.val; rw [e0]; omega

/-- The body's result on the blocks of point `t`, at an index of the block, is the layer of the six arrays at the index
    of the array that the output's block puts there. -/
theorem layer_block_entry (c : Dev nD) (t : Fin cfg1.N) (j : S5000x128.Idx) :
    k1_pay1 (iblk1 (F := Ideal) V c 0 t) (iblk1 (F := Ideal) V c 2 t) (iblk1 (F := Ideal) V c 1 t) (iblk1 (F := Ideal) V c 3 t)
        (iblk1 (F := Ideal) V c 4 t) (iblk1 (F := Ideal) V c 5 t) j
      = Cert.Gnn.convSum (N := 100000) (D := 128) (V c main_v23) (V c main_v13) (V c main_v12) (V c main_arg4) (V c main_arg5)
          (V c main_arg6) (((cfg1.win 6).blk t).view.emb j) := by
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  obtain ⟨n, hn⟩ : ∃ n : Fin 100000, n.val = t.val * 5000 + p.val := ⟨⟨t.val * 5000 + p.val, by omega⟩, rfl⟩
  obtain ⟨-, -, -, -, -, -, -, -, -, -, -, e0, e1⟩ := block_index_facts t
  have hemb : ((cfg1.win 6).blk t).view.emb (ix2 p q) = (ix2 n q : S100000x128.Idx) := by
    refine funext fun a => Fin.ext ?_
    match a with
    | ⟨0, _⟩ => show win1_6.index t (0 : Fin 2) * 5000 + 1 * p.val = n.val; rw [e0, hn]; omega
    | ⟨1, _⟩ => show win1_6.index t (1 : Fin 2) * 128 + 1 * q.val = q.val; rw [e1]; omega
  rw [hemb]
  refine (layer_block_apply _ _ _ _ _ _ p q).trans ?_
  have s0 : ∀ k : Fin 128, (iblk1 (F := Ideal) V c 0 t : Vec Ideal S5000x128 .f32) (ix2 p k) = (V c main_v23 : S100000x128.Idx → EReal) (ix2 n k) :=
    fun k => summed_block_apply V c t p k n hn
  have s1 : ∀ k : Fin 128, (iblk1 (F := Ideal) V c 1 t : Vec Ideal S5000x128 .f32) (ix2 p k) = (V c main_v13 : S100000x128.Idx → EReal) (ix2 n k) :=
    fun k => node_block_apply V c t p k n hn
  have s2 := recip_block_apply V c t p n hn
  have s3 : ∀ k : Fin 128, _ := fun k => rel_block_apply V c t k q
  have s4 : ∀ k : Fin 128, _ := fun k => root_block_apply V c t k q
  have s5 := bias_block_apply V c t q
  simp only [s0, s1, s2, s3, s4, s5]
  rfl

/-- What point `t` writes back is block `t` of the layer of the six arrays. -/
theorem flushed_block (c : Dev nD) (t : Fin cfg1.N) :
    (dat1 (F := Ideal) V c).flushed 6 t = ((cfg1.win 6).blk t).view.read (Elt Ideal)
      (Cert.Gnn.convSum (N := 100000) (D := 128) (V c main_v23) (V c main_v13) (V c main_v12) (V c main_arg4) (V c main_arg5) (V c main_arg6)) := by
  show (cfg1.win 6).cut (grid1.coords t) ((dat1 (F := Ideal) V c).after 6 t) = _
  rw [after1_6]
  unfold out1_6
  rw [View.canon_unit_zero offsets_zero2]
  simp only [View.ld_unit_zero (S := S5000x128) offsets_zero2, View.ld_unit_zero (S := S5000x1) offsets_zero2,
    View.ld_unit_zero (S := S128x128) offsets_zero2, View.ld_unit_zero (S := S128) offsets_zero1]
  funext j
  exact layer_block_entry V c t j

/-- An index of the output array is in point `t`'s block iff each coordinate is in the block's range on its axis. -/
theorem mem_out_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v24).slice (win1_6.rect t)).set ↔ _
  rw [View.set_slice_whole, Rect.mem_set_unit]
  exact Iff.rfl

/-- Every row is in some point's block: row `r` in that of point `r / 5000`. -/
theorem out_blocks_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, -, e0, e1⟩ := block_index_facts t
  refine ⟨t, flush1_6 t, ?_⟩
  rw [mem_out_block]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- After the first layer's region the output array is `convSum` of the six arrays the region reads. -/
theorem conv1_array (c : Dev nD) :
    (dat1 (F := Ideal) V c).arrAt 6 cfg1.N
      = Cert.Gnn.convSum (N := 100000) (D := 128) (V c main_v23) (V c main_v13) (V c main_v12) (V c main_arg4) (V c main_arg5) (V c main_arg6) :=
  (dat1 (F := Ideal) V c).arrAt_eq_of_cover 6 _ (fun t _ => flushed_block V c t) out_blocks_cover

end Cert.KernelIdeal.RegionValue

end
-- ==== Proof.RegionConv2.lean ====
/- The second graph layer's region: the array its twenty row blocks leave is the layer (`convSum`) of the arrays it finds. -/
import proofs.«115833_j5841155522636_1_alg».proof.Proof.Gen.KernelIdeal.Frame
import proofs.«115833_j5841155522636_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue.Second

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The offsets `(0, 0)` are zero on every axis. -/
theorem offsets_zero2 : (![0, 0] : Fin 2 → Nat) = fun _ => 0 := funext fun a => by fin_cases a <;> rfl

/-- The offset `(0)` is zero on its axis. -/
theorem offsets_zero1 : (![0] : Fin 1 → Nat) = fun _ => 0 := funext fun a => by fin_cases a <;> rfl

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block product is read at the output's row … -/
theorem blockDot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted coordinate on its second axis; -/
theorem blockDot_lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate on its first axis … -/
theorem blockDot_rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem blockDot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128]` block times a `[128, 128]` matrix, accumulated from zero: entry `(p, q)` is the sum over `k` of
    the block's `(p, k)` times the matrix's `(k, q)`. -/
theorem blockDot_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockDot_lhs_row _ _
    | ⟨1, _⟩ => exact (blockDot_lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockDot_rhs_contr _ _).trans hk
    | ⟨1, _⟩ => exact blockDot_rhs_col _ _)
  rw [el, er]

/-- The body's result at row `p`, column `q` of a block: the summed rows scaled by the row's reciprocal times the relation
    matrix, plus the node rows times the root matrix, plus the bias, clipped below at zero. -/
theorem layer_block_apply (g : Vec Ideal S5000x128 .f32) (r : Vec Ideal S5000x1 .f32) (h : Vec Ideal S5000x128 .f32)
    (Wrel Wroot : Vec Ideal S128x128 .f32) (b : Vec Ideal S128 .f32) (p : Fin 5000) (q : Fin 128) :
    k2_pay1 g r h Wrel Wroot b (ix2 p q)
      = max (((∑ k : Fin 128, (g (ix2 p k) * r (ix2 p (0 : Fin 1))) * Wrel (ix2 k q))
          + ∑ k : Fin 128, h (ix2 p k) * Wroot (ix2 k q)) + b (ix1 q)) 0 := by
  unfold k2_pay1
  have zero_word : (FloatOps.ofBits (F := Ideal) FTy.f32 0x00000000#32) = (0 : EReal) := Ideal.ofBits_zero_f32
  rw [maximumf_apply, addf_apply, addf_apply, blockDot_apply, blockDot_apply, broadcast_apply, zero_word,
    broadcastTo_1b_ab_apply, shapeCast_a_1a_apply]
  simp only [truncf_apply, mulf_apply, shapeCast_self, broadcastTo_column_apply]

/-- The block index maps, decided over the twenty points: the three row-tiled inputs and the output sit at block row
    `t`, column block `0`; the two matrices and the bias stay at block `0`. -/
theorem block_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Block `t` of the summed source rows at `(p, k)` is the array at row `5000 t + p`. -/
theorem summed_block_apply (c : Dev nD) (t : Fin cfg2.N) (p : Fin 5000) (k : Fin 128) (n : Fin 100000)
    (hn : n.val = t.val * 5000 + p.val) :
    (iblk2 (F := Ideal) V c 0 t : Vec Ideal S5000x128 .f32) (ix2 p k) = (V c main_v34 : S100000x128.Idx → EReal) (ix2 n k) := by
  obtain ⟨e0, e1, -⟩ := block_index_facts t
  show V c main_v34 (((cfg2.win 0).blk t).view.emb (ix2 p k)) = _
  refine congrArg _ (funext fun a => Fin.ext ?_)
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- Block `t` of the node rows at `(p, k)` is the array at row `5000 t + p`. -/
theorem node_block_apply (c : Dev nD) (t : Fin cfg2.N) (p : Fin 5000) (k : Fin 128) (n : Fin 100000)
    (hn : n.val = t.val * 5000 + p.val) :
    (iblk2 (F := Ideal) V c 1 t : Vec Ideal S5000x128 .f32) (ix2 p k) = (V c main_v24 : S100000x128.Idx → EReal) (ix2 n k) := by
  obtain ⟨-, -, e0, e1, -⟩ := block_index_facts t
  show V c main_v24 (((cfg2.win 1).blk t).view.emb (ix2 p k)) = _
  refine congrArg _ (funext fun a => Fin.ext ?_)
  match a with
  | ⟨0, _⟩ => show win2_1.index t (0 : Fin 2) * 5000 + 1 * p.val = n.val; rw [e0, hn]; omega
  | ⟨1, _⟩ => show win2_1.index t (1 : Fin 2) * 128 + 1 * k.val = k.val; rw [e1]; omega

/-- Block `t` of the reciprocal column at `(p, 0)` is the column at row `5000 t + p`. -/
theorem recip_block_apply (c : Dev nD) (t : Fin cfg2.N) (p : Fin 5000) (n : Fin 100000)
    (hn : n.val = t.val * 5000 + p.val) :
    (iblk2 (F := Ideal) V c 2 t : Vec Ideal S5000x1 .f32) (ix2 p (0 : Fin 1)) = (V c main_v12 : S100000x1.Idx → EReal) (ix2 n (0 : Fin 1)) := by
  obtain ⟨-, -, -, -, e0, e1, -⟩ := block_index_facts t
  show V c main_v12 (((cfg2.win 2).blk t).view.emb (ix2 p (0 : Fin 1))) = _
  refine congrArg _ (funext fun a => Fin.ext ?_)
  match a with
  | ⟨0, _⟩ => show win2_2.index t (0 : Fin 2) * 5000 + 1 * p.val = n.val; rw [e0, hn]; omega
  | ⟨1, _⟩ => show win2_2.index t (1 : Fin 2) * 1 + 1 * 0 = 0; rw [e1]

/-- The relation matrix's one block is the matrix. -/
theorem rel_block_apply (c : Dev nD) (t : Fin cfg2.N) (k q : Fin 128) :
    (iblk2 (F := Ideal) V c 3 t : Vec Ideal S128x128 .f32) (ix2 k q) = (V c main_arg7 : S128x128.Idx → EReal) (ix2 k q) := by
  obtain ⟨-, -, -, -, -, -, e0, e1, -⟩ := block_index_facts t
  show V c main_arg7 (((cfg2.win 3).blk t).view.emb (ix2 k q)) = _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The root matrix's one block is the matrix. -/
theorem root_block_apply (c : Dev nD) (t : Fin cfg2.N) (k q : Fin 128) :
    (iblk2 (F := Ideal) V c 4 t : Vec Ideal S128x128 .f32) (ix2 k q) = (V c main_arg8 : S128x128.Idx → EReal) (ix2 k q) := by
  obtain ⟨-, -, -, -, -, -, -, -, e0, e1, -⟩ := block_index_facts t
  show V c main_arg8 (((cfg2.win 4).blk t).view.emb (ix2 k q)) = _
  refine congrArg _ (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The bias's one block is the bias. -/
theorem bias_block_apply (c : Dev nD) (t : Fin cfg2.N) (q : Fin 128) :
    (iblk2 (F := Ideal) V c 5 t : Vec Ideal S128 .f32) (ix1 q) = (V c main_arg9 : S128.Idx → EReal) (ix1 q) := by
  obtain ⟨-, -, -, -, -, -, -, -, -, -, e0, -⟩ := block_index_facts t
  show V c main_arg9 (((cfg2.win 5).blk t).view.emb (ix1 q)) = _
  refine congrArg _ (funext fun a => Fin.ext ?_)
  match a with
  | ⟨0, _⟩ => show win2_5.index t (0 : Fin 1) * 128 + 1 * q.val = q.val; rw [e0]; omega

/-- The body's result on the blocks of point `t`, at an index of the block, is the layer of the six arrays at the index
    of the array that the output's block puts there. -/
theorem layer_block_entry (c : Dev nD) (t : Fin cfg2.N) (j : S5000x128.Idx) :
    k2_pay1 (iblk2 (F := Ideal) V c 0 t) (iblk2 (F := Ideal) V c 2 t) (iblk2 (F := Ideal) V c 1 t) (iblk2 (F := Ideal) V c 3 t)
        (iblk2 (F := Ideal) V c 4 t) (iblk2 (F := Ideal) V c 5 t) j
      = Cert.Gnn.convSum (N := 100000) (D := 128) (V c main_v34) (V c main_v24) (V c main_v12) (V c main_arg7) (V c main_arg8)
          (V c main_arg9) (((cfg2.win 6).blk t).view.emb j) := by
  obtain ⟨p, q, rfl⟩ : ∃ (p : Fin 5000) (q : Fin 128), j = ix2 p q := ⟨j 0, j 1, eq_ix2 j⟩
  have ht : t.val < 20 := lt_of_lt_of_eq t.isLt N_2
  have hp : p.val < 5000 := p.isLt
  obtain ⟨n, hn⟩ : ∃ n : Fin 100000, n.val = t.val * 5000 + p.val := ⟨⟨t.val * 5000 + p.val, by omega⟩, rfl⟩
  obtain ⟨-, -, -, -, -, -, -, -, -, -, -, e0, e1⟩ := block_index_facts t
  have hemb : ((cfg2.win 6).blk t).view.emb (ix2 p q) = (ix2 n q : S100000x128.Idx) := by
    refine funext fun a => Fin.ext ?_
    match a with
    | ⟨0, _⟩ => show win2_6.index t (0 : Fin 2) * 5000 + 1 * p.val = n.val; rw [e0, hn]; omega
    | ⟨1, _⟩ => show win2_6.index t (1 : Fin 2) * 128 + 1 * q.val = q.val; rw [e1]; omega
  rw [hemb]
  refine (layer_block_apply _ _ _ _ _ _ p q).trans ?_
  have s0 : ∀ k : Fin 128, (iblk2 (F := Ideal) V c 0 t : Vec Ideal S5000x128 .f32) (ix2 p k) = (V c main_v34 : S100000x128.Idx → EReal) (ix2 n k) :=
    fun k => summed_block_apply V c t p k n hn
  have s1 : ∀ k : Fin 128, (iblk2 (F := Ideal) V c 1 t : Vec Ideal S5000x128 .f32) (ix2 p k) = (V c main_v24 : S100000x128.Idx → EReal) (ix2 n k) :=
    fun k => node_block_apply V c t p k n hn
  have s2 := recip_block_apply V c t p n hn
  have s3 : ∀ k : Fin 128, _ := fun k => rel_block_apply V c t k q
  have s4 : ∀ k : Fin 128, _ := fun k => root_block_apply V c t k q
  have s5 := bias_block_apply V c t q
  simp only [s0, s1, s2, s3, s4, s5]
  rfl

/-- What point `t` writes back is block `t` of the layer of the six arrays. -/
theorem flushed_block (c : Dev nD) (t : Fin cfg2.N) :
    (dat2 (F := Ideal) V c).flushed 6 t = ((cfg2.win 6).blk t).view.read (Elt Ideal)
      (Cert.Gnn.convSum (N := 100000) (D := 128) (V c main_v34) (V c main_v24) (V c main_v12) (V c main_arg7) (V c main_arg8) (V c main_arg9)) := by
  show (cfg2.win 6).cut (grid2.coords t) ((dat2 (F := Ideal) V c).after 6 t) = _
  rw [after2_6]
  unfold out2_6
  rw [View.canon_unit_zero offsets_zero2]
  simp only [View.ld_unit_zero (S := S5000x128) offsets_zero2, View.ld_unit_zero (S := S5000x1) offsets_zero2,
    View.ld_unit_zero (S := S128x128) offsets_zero2, View.ld_unit_zero (S := S128) offsets_zero1]
  funext j
  exact layer_block_entry V c t j

/-- An index of the output array is in point `t`'s block iff each coordinate is in the block's range on its axis. -/
theorem mem_out_block (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v35).slice (win2_6.rect t)).set ↔ _
  rw [View.set_slice_whole, Rect.mem_set_unit]
  exact Iff.rfl

/-- Every row is in some point's block: row `r` in that of point `r / 5000`. -/
theorem out_blocks_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, -, e0, e1⟩ := block_index_facts t
  refine ⟨t, flush2_6 t, ?_⟩
  rw [mem_out_block]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- After the second layer's region the output array is `convSum` of the six arrays the region reads. -/
theorem conv2_array (c : Dev nD) :
    (dat2 (F := Ideal) V c).arrAt 6 cfg2.N
      = Cert.Gnn.convSum (N := 100000) (D := 128) (V c main_v34) (V c main_v24) (V c main_v12) (V c main_arg7) (V c main_arg8) (V c main_arg9) :=
  (dat2 (F := Ideal) V c).arrAt_eq_of_cover 6 _ (fun t _ => flushed_block V c t) out_blocks_cover

end Cert.KernelIdeal.RegionValue.Second

end
-- ==== Proof.RegionHead.lean ====
/- The output head: the array its twenty row blocks leave is `h · W + b` of the arrays it finds. -/
import proofs.«115833_j5841155522636_1_alg».proof.Proof.Gen.KernelIdeal.Frame
import proofs.«115833_j5841155522636_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The zero offsets of a whole rank-2 block, however spelt. -/
theorem head_zero_offsets_two : (![0, 0] : Fin 2 → Nat) = fun _ => 0 := funext fun a => by fin_cases a <;> rfl
/-- The zero offset of a whole rank-1 block. -/
theorem head_zero_offsets_one : (![0] : Fin 1 → Nat) = fun _ => 0 := funext fun a => by fin_cases a <;> rfl

/-- The left operand of the head's product is read at the output's row … -/
theorem head_dot_lhs_row (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … and the contraction index's column; -/
theorem head_dot_lhs_col (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- the right operand at the contraction index's row … -/
theorem head_dot_rhs_row (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- … and the output's column. -/
theorem head_dot_rhs_col (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The block product into a zero accumulator, at entry `(p, q)`: the sum over the 128 features. -/
theorem head_product_apply (x0 : FVec Ideal S5000x128 .bf16) (x1 : FVec Ideal S128x16 .bf16) (p : Fin 5000) (q : Fin 16) :
    FloatOps.matmul dot_S5000x128_S128x16_S5000x16_1_0_0_1_n_n none x0 x1 (constant (F := Ideal) S5000x16 .f32 0x00000000#32) (ix2 p q)
      = ∑ k : Fin 128, x0 (ix2 p k) * x1 (ix2 k q) := by
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact head_dot_lhs_row _ _
    | ⟨1, _⟩ => exact (head_dot_lhs_col _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (head_dot_rhs_row _ _).trans hk
    | ⟨1, _⟩ => exact head_dot_rhs_col _ _)
  rw [el, er]

/-- The bias row broadcast down the block, at entry `(p, q)`: the bias at `q`. -/
theorem head_bias_apply (x2 : Vec Ideal S16 .f32) (p : Fin 5000) (q : Fin 16) :
    broadcastTo S5000x16 (shapeCast S1x16 x2 shapeCasts_S16_S1x16) broadcasts_S1x16_S5000x16 (ix2 p q) = x2 (ix1 q) := by
  rw [broadcastTo_apply (shapeCast S1x16 x2 shapeCasts_S16_S1x16) broadcasts_S1x16_S5000x16 (ix2 p q) (ix2 (⟨0, Nat.one_pos⟩ : Fin 1) q) (fun a => by
    match a with
    | ⟨0, _⟩ => show 0 = if (1 : Nat) = 1 then 0 else p.val; rw [if_pos rfl]
    | ⟨1, _⟩ => show q.val = if (16 : Nat) = 1 then 0 else q.val; rw [if_neg (by decide)])]
  exact shapeCast_apply x2 shapeCasts_S16_S1x16 _ (ix1 q) (by
    rewrite [Shape.rowMajor_val_one, Shape.rowMajor_val_two]
    show q.val = 0 * 16 + q.val
    omega)

/-- The body's result at entry `(p, q)` of its block: the row of the feature block against the column of the weights, plus the bias. -/
theorem head_payload_apply (x0 : Vec Ideal S5000x128 .f32) (x1 : Vec Ideal S128x16 .f32) (x2 : Vec Ideal S16 .f32) (p : Fin 5000) (q : Fin 16) :
    k3_pay1 (F := Ideal) x0 x1 x2 (ix2 p q) = (∑ k : Fin 128, x0 (ix2 p k) * x1 (ix2 k q)) + x2 (ix1 q) := by
  unfold k3_pay1
  simp only [shapeCast_self, matmul]
  rw [addf_apply, head_product_apply, head_bias_apply]
  rfl

/-- The index maps over the twenty points: the feature block and the output block sit at row block `t`, the weights and the bias at their one block. -/
theorem head_index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Every one of the twenty row blocks is some point's. -/
theorem head_index_onto : ∀ q0 : Fin 20, ∃ t : Fin cfg3.N, win3_3.index t = ![q0.val, 0] :=
  (by decide +kernel : ∀ q0 : Fin 20, ∃ t : Fin grid3.N, win3_3.index t = ![q0.val, 0])

/-- The feature block at point `t` holds rows `5000 t … 5000 t + 4999` of the feature array. -/
theorem head_feature_block (c : Dev nD) (t : Fin cfg3.N) (y : S5000x128.Idx) (i : S100000x128.Idx)
    (h0 : (i 0).val = t.val * 5000 + (y 0).val) (h1 : (i 1).val = (y 1).val) :
    (iblk3 (F := Ideal) V c 0 t : Vec Ideal S5000x128 .f32) y = (V c main_v35 : S100000x128.Idx → EReal) i := by
  obtain ⟨e0, e1, -⟩ := head_index_facts t
  unfold iblk3
  rw [View.read_apply]
  show V c main_v35 _ = V c main_v35 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight block at every point is the weight array. -/
theorem head_weight_block (c : Dev nD) (t : Fin cfg3.N) (y i : S128x16.Idx)
    (h0 : (i 0).val = (y 0).val) (h1 : (i 1).val = (y 1).val) :
    (iblk3 (F := Ideal) V c 1 t : Vec Ideal S128x16 .f32) y = (V c main_arg10 : S128x16.Idx → EReal) i := by
  obtain ⟨-, -, e0, e1, -⟩ := head_index_facts t
  unfold iblk3
  rw [View.read_apply]
  show V c main_arg10 _ = V c main_arg10 _
  congr 1
  funext a
  apply Fin.ext
  match a with
  | ⟨0, _⟩ => show win3_1.index t (0 : Fin 2) * 128 + 1 * (y 0).val = (i 0).val; rw [e0, h0]; omega
  | ⟨1, _⟩ => show win3_1.index t (1 : Fin 2) * 16 + 1 * (y 1).val = (i 1).val; rw [e1, h1]; omega

/-- The bias block at every point is the bias array. -/
theorem head_bias_block (c : Dev nD) (t : Fin cfg3.N) (y i : S16.Idx) (h0 : (i 0).val = (y 0).val) :
    (iblk3 (F := Ideal) V c 2 t : Vec Ideal S16 .f32) y = (V c main_arg11 : S16.Idx → EReal) i := by
  obtain ⟨-, -, -, -, e0, -⟩ := head_index_facts t
  unfold iblk3
  rw [View.read_apply]
  show V c main_arg11 _ = V c main_arg11 _
  congr 1
  funext a
  apply Fin.ext
  match a with
  | ⟨0, _⟩ => show win3_2.index t (0 : Fin 1) * 16 + 1 * (y 0).val = (i 0).val; rw [e0, h0]; omega

/-- The body's result at any entry of its block. -/
theorem head_payload_at (x0 : Vec Ideal S5000x128 .f32) (x1 : Vec Ideal S128x16 .f32) (x2 : Vec Ideal S16 .f32) (y : S5000x16.Idx) :
    k3_pay1 (F := Ideal) x0 x1 x2 y = (∑ k : Fin 128, x0 (ix2 (y 0) k) * x1 (ix2 k (y 1))) + x2 (ix1 (y 1)) := by
  obtain ⟨p, q, rfl⟩ : ∃ (p : Fin 5000) (q : Fin 16), y = ix2 p q := ⟨y 0, y 1, eq_ix2 y⟩
  exact head_payload_apply x0 x1 x2 p q

/-- What point `t` writes back is block `t` of `h · W + b` of the arrays the region finds. -/
theorem head_flushed (c : Dev nD) (t : Fin cfg3.N) :
    (dat3 (F := Ideal) V c).flushed 3 t = ((cfg3.win 3).blk t).view.read (Elt Ideal)
      (Cert.Gnn.affine (N := 100000) (K := 128) (M := 16) (V c main_v35) (V c main_arg10) (V c main_arg11)) := by
  show (cfg3.win 3).cut (grid3.coords t) ((dat3 V c).after 3 t) = _
  rw [after3_3]
  unfold out3_3
  rw [View.canon_unit_zero head_zero_offsets_two]
  simp only [View.ld_unit_zero (S := S5000x128) head_zero_offsets_two, View.ld_unit_zero (S := S128x16) head_zero_offsets_two, View.ld_unit_zero (S := S16) head_zero_offsets_one]
  obtain ⟨-, -, -, -, -, e0, e1⟩ := head_index_facts t
  funext j
  refine (head_payload_at _ _ _ _).trans ?_
  show _ = Cert.Gnn.affine (N := 100000) (K := 128) (M := 16) (V c main_v35) (V c main_arg10) (V c main_arg11) (((cfg3.win 3).blk t).view.emb j)
  unfold Cert.Gnn.affine
  refine congrArg₂ (· + ·) (Finset.sum_congr rfl fun k _ => congrArg₂ (· * ·) ?_ ?_) ?_
  · refine head_feature_block V c t _ _ ?_ rfl
    show win3_3.index t (0 : Fin 2) * 5000 + 1 * (j 0).val = t.val * 5000 + (j 0).val
    rw [e0]; omega
  · refine head_weight_block V c t _ _ rfl ?_
    show win3_3.index t (1 : Fin 2) * 16 + 1 * (j 1).val = (j 1).val
    rw [e1]; omega
  · refine head_bias_block V c t _ _ ?_
    show win3_3.index t (1 : Fin 2) * 16 + 1 * (j 1).val = (j 1).val
    rw [e1]; omega

/-- An entry of the output array is in point `t`'s block iff each coordinate is in the block's range on its axis. -/
theorem head_mem_block (t : Fin cfg3.N) (i : S100000x16.Idx) :
    i ∈ ((cfg3.win 3).blk t).view.set ↔ ∀ a : Fin 2, win3_3.index t a * S5000x16.size a ≤ (i a).val ∧ (i a).val < win3_3.index t a * S5000x16.size a + S5000x16.size a := by
  show i ∈ ((View.whole main_v36).slice (win3_3.rect t)).set ↔ _
  rw [View.set_slice_whole, Rect.mem_set_unit]
  exact Iff.rfl

/-- The twenty blocks of 5000 rows tile the 100000 rows: row `r` is in the block of point `r / 5000`. -/
theorem head_cover (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  obtain ⟨t, ht⟩ := head_index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [head_mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 16 ≤ (i 1).val ∧ (i 1).val < win3_3.index t (1 : Fin 2) * 16 + 16; omega

/-- After the head region the output array is `h · W + b` of the three arrays the region reads, row by row. -/
theorem head_array (c : Dev nD) :
    (dat3 (F := Ideal) V c).arrAt 3 cfg3.N
      = Cert.Gnn.affine (N := 100000) (K := 128) (M := 16) (V c main_v35) (V c main_arg10) (V c main_arg11) :=
  (dat3 (F := Ideal) V c).arrAt_eq_of_cover 3 _ (fun t _ => head_flushed V c t) head_cover

end Cert.KernelIdeal.RegionValue

end
-- ==== Proof.EdgeOps.lean ====
/-
  The host's edge operations read at an entry. An accumulating scatter whose index column holds one node word
  per edge adds, into node `n`, the updates of exactly the edges whose word read signed is `n` (a word outside
  the node range lands nowhere); a row gather reads, for edge `e`, the row its word names after clamping into
  the node range. Stated for the three dimension records the network uses: rows scattered into a rank-2 array,
  one number per edge scattered into a rank-1 array, and rows gathered from a rank-2 array.
-/
import proofs.«115833_j5841155522636_1_alg».proof.Proof.Spec

noncomputable section

namespace Cert.Gnn

open Idealize.ShloMosaic Idealize.ShloMosaic.ValueIdx

variable {N E D : Nat}

theorem start_rows0 (wf) (idx : EdgeWords E) (j : (⟨2,![E,D]⟩:Shape).Idx) :
    (ScatterDims.mk (s := ⟨2,![N,D]⟩) (si := ⟨2,![E,1]⟩) (u := ⟨2,![E,D]⟩) [1] [0] [0] 1 wf).start j idx 0 = (idx (ix2 (j 0) 0)).toInt := by
  unfold ScatterDims.start
  rw [dif_pos (show (0 : Fin 2) ∈ [(0 : Fin 2)] from by decide)]
  congr 2
  funext b
  match b with
  | ⟨0, _⟩ => rfl
  | ⟨1, _⟩ => rfl

theorem start_rows1 (wf) (idx : EdgeWords E) (j : (⟨2,![E,D]⟩:Shape).Idx) :
    (ScatterDims.mk (s := ⟨2,![N,D]⟩) (si := ⟨2,![E,1]⟩) (u := ⟨2,![E,D]⟩) [1] [0] [0] 1 wf).start j idx 1 = 0 := by
  unfold ScatterDims.start
  rw [dif_neg (show (1 : Fin 2) ∉ [(0 : Fin 2)] from by decide)]

theorem window_rows0 (wf) (j : (⟨2,![E,D]⟩:Shape).Idx) :
    (ScatterDims.mk (s := ⟨2,![N,D]⟩) (si := ⟨2,![E,1]⟩) (u := ⟨2,![E,D]⟩) [1] [0] [0] 1 wf).window j 0 = 0 := by
  unfold ScatterDims.window
  exact dif_neg (show (0 : Fin 2) ∉ (List.finRange 2).filter (· ∉ [(0 : Fin 2)]) from by decide)

theorem window_rows1 (wf) (j : (⟨2,![E,D]⟩:Shape).Idx) :
    (ScatterDims.mk (s := ⟨2,![N,D]⟩) (si := ⟨2,![E,1]⟩) (u := ⟨2,![E,D]⟩) [1] [0] [0] 1 wf).window j 1 = (j 1).val := by
  unfold ScatterDims.window
  exact (dif_pos (show (1 : Fin 2) ∈ (List.finRange 2).filter (· ∉ [(0 : Fin 2)]) from by decide)).trans rfl

abbrev rowsDims (wf : ScatterDims.WF (⟨2,![N,D]⟩ : Shape) ⟨2,![E,1]⟩ ⟨2,![E,D]⟩ [1] [0] [0] 1) : ScatterDims (⟨2,![N,D]⟩ : Shape) ⟨2,![E,1]⟩ ⟨2,![E,D]⟩ := ScatterDims.mk [1] [0] [0] 1 wf

theorem resultIdx_rows_iff (wf) (idx : EdgeWords E) (j : (⟨2,![E,D]⟩:Shape).Idx) (i : (⟨2,![N,D]⟩:Shape).Idx) :
    (rowsDims (N := N) (E := E) (D := D) wf).resultIdx? j idx = some i
      ↔ (idx (ix2 (j 0) 0)).toInt = ((i 0).val : Int) ∧ j 1 = i 1 := by
  have hN0 : (⟨2,![N,D]⟩ : Shape).size 0 = N := rfl
  have hN1 : (⟨2,![N,D]⟩ : Shape).size 1 = D := rfl
  have hi0 : (i 0).val < N := (i 0).isLt
  have hj1 : (j 1).val < D := (j 1).isLt
  unfold ScatterDims.resultIdx?
  constructor
  · intro h
    split at h
    · rename_i hc
      have hi := Option.some.inj h
      have h0 : ((rowsDims (N := N) (E := E) (D := D) wf).start j idx 0 + ((rowsDims (N := N) (E := E) (D := D) wf).window j 0 : Nat)).toNat = (i 0).val :=
        congrArg (fun f => (f 0).val) hi
      have h1 : ((rowsDims (N := N) (E := E) (D := D) wf).start j idx 1 + ((rowsDims (N := N) (E := E) (D := D) wf).window j 1 : Nat)).toNat = (i 1).val :=
        congrArg (fun f => (f 1).val) hi
      have hc0 := hc 0
      rw [start_rows0, window_rows0] at h0 hc0
      rw [start_rows1, window_rows1] at h1
      refine ⟨by omega, Fin.ext (by omega)⟩
    · exact absurd h (by simp)
  · rintro ⟨hA, hB⟩
    have hB' : (j 1).val = (i 1).val := congrArg Fin.val hB
    have hc : ∀ a, 0 ≤ (rowsDims (N := N) (E := E) (D := D) wf).start j idx a + ((rowsDims (N := N) (E := E) (D := D) wf).window j a : Nat)
        ∧ (rowsDims (N := N) (E := E) (D := D) wf).start j idx a + ((rowsDims (N := N) (E := E) (D := D) wf).window j a : Nat) < (⟨2,![N,D]⟩ : Shape).size a := by
      refine Fin.forall_fin_two.2 ⟨?_, ?_⟩
      · rw [start_rows0, window_rows0, hN0]; omega
      · rw [start_rows1, window_rows1, hN1]; omega
    rw [dif_pos hc]
    refine congrArg some (funext (Fin.forall_fin_two.2 ⟨Fin.ext ?_, Fin.ext ?_⟩))
    · show ((rowsDims (N := N) (E := E) (D := D) wf).start j idx 0 + ((rowsDims (N := N) (E := E) (D := D) wf).window j 0 : Nat)).toNat = (i 0).val
      rw [start_rows0, window_rows0]; omega
    · show ((rowsDims (N := N) (E := E) (D := D) wf).start j idx 1 + ((rowsDims (N := N) (E := E) (D := D) wf).window j 1 : Nat)).toNat = (i 1).val
      rw [start_rows1, window_rows1]; omega

/-- The accumulating scatter of rows, read at an entry: the operand's entry plus the sum over the in-edges of the
    node of the updates' entries in the same column. -/
theorem scatterAdd_rows_apply (wf) (x : Arr2 N D) (idx : EdgeWords E) (upd : Arr2 E D) (i : (⟨2,![N,D]⟩:Shape).Idx) :
    Ideal.hostScatterAdd (rowsDims (N := N) (E := E) (D := D) wf) x idx upd i
      = x i + ∑ e ∈ inEdges idx (i 0).val, upd (ix2 e (i 1)) := by
  unfold Ideal.hostScatterAdd
  congr 1
  have hset : (Finset.univ.filter fun j : (⟨2,![E,D]⟩:Shape).Idx => (rowsDims (N := N) (E := E) (D := D) wf).resultIdx? j idx = some i)
      = (inEdges idx (i 0).val).image (fun e => (ix2 e (i 1) : (⟨2,![E,D]⟩:Shape).Idx)) := by
    ext j
    simp only [Finset.mem_filter, Finset.mem_univ, true_and, Finset.mem_image, inEdges, resultIdx_rows_iff]
    constructor
    · rintro ⟨hA, hB⟩
      exact ⟨j 0, hA, by rw [← hB]; exact (eq_ix2 j).symm⟩
    · rintro ⟨e, he, rfl⟩
      exact ⟨he, rfl⟩
  rw [hset, Finset.sum_image]
  intro a _ b _ hab
  exact congrArg (fun f : (⟨2,![E,D]⟩:Shape).Idx => f 0) hab

/-! ## The count scatter: rank-1 operand -/

abbrev countDims (wf : ScatterDims.WF (⟨1,![N]⟩ : Shape) ⟨2,![E,1]⟩ ⟨1,![E]⟩ [] [0] [0] 1) :
    ScatterDims (⟨1,![N]⟩ : Shape) ⟨2,![E,1]⟩ ⟨1,![E]⟩ := ScatterDims.mk [] [0] [0] 1 wf

theorem start_count0 (wf) (idx : EdgeWords E) (j : (⟨1,![E]⟩:Shape).Idx) :
    (countDims (N := N) (E := E) wf).start j idx 0 = (idx (ix2 (j 0) 0)).toInt := by
  unfold ScatterDims.start
  rw [dif_pos (show (0 : Fin 1) ∈ [(0 : Fin 1)] from by decide)]
  congr 2
  funext b
  match b with
  | ⟨0, _⟩ => rfl
  | ⟨1, _⟩ => rfl

theorem window_count0 (wf) (j : (⟨1,![E]⟩:Shape).Idx) :
    (countDims (N := N) (E := E) wf).window j 0 = 0 := by
  unfold ScatterDims.window
  exact dif_neg (show (0 : Fin 1) ∉ (List.finRange 1).filter (· ∉ [(0 : Fin 1)]) from by decide)

theorem resultIdx_count_iff (wf) (idx : EdgeWords E) (j : (⟨1,![E]⟩:Shape).Idx) (i : (⟨1,![N]⟩:Shape).Idx) :
    (countDims (N := N) (E := E) wf).resultIdx? j idx = some i ↔ (idx (ix2 (j 0) 0)).toInt = ((i 0).val : Int) := by
  have hN0 : (⟨1,![N]⟩ : Shape).size 0 = N := rfl
  have hi0 : (i 0).val < N := (i 0).isLt
  have all1 : ∀ (P : Fin 1 → Prop), P 0 → ∀ a, P a := fun P h a => by
    have : a = 0 := Subsingleton.elim _ _
    rw [this]; exact h
  unfold ScatterDims.resultIdx?
  constructor
  · intro h
    split at h
    · rename_i hc
      have hi := Option.some.inj h
      have h0 : ((countDims (N := N) (E := E) wf).start j idx 0 + ((countDims (N := N) (E := E) wf).window j 0 : Nat)).toNat = (i 0).val :=
        congrArg (fun f => (f 0).val) hi
      have hc0 := hc 0
      rw [start_count0, window_count0] at h0 hc0
      omega
    · exact absurd h (by simp)
  · intro hA
    have hc : ∀ a, 0 ≤ (countDims (N := N) (E := E) wf).start j idx a + ((countDims (N := N) (E := E) wf).window j a : Nat)
        ∧ (countDims (N := N) (E := E) wf).start j idx a + ((countDims (N := N) (E := E) wf).window j a : Nat) < (⟨1,![N]⟩ : Shape).size a := by
      refine all1 _ ?_
      rw [start_count0, window_count0, hN0]; omega
    rw [dif_pos hc]
    refine congrArg some (funext (all1 _ (Fin.ext ?_)))
    show ((countDims (N := N) (E := E) wf).start j idx 0 + ((countDims (N := N) (E := E) wf).window j 0 : Nat)).toNat = (i 0).val
    rw [start_count0, window_count0]; omega

/-- The accumulating scatter of one number per edge, read at a node: the operand's entry plus the sum over the
    node's in-edges of the updates. -/
theorem scatterAdd_count_apply (wf) (x : Arr1 N) (idx : EdgeWords E) (upd : Arr1 E) (i : (⟨1,![N]⟩:Shape).Idx) :
    Ideal.hostScatterAdd (countDims (N := N) (E := E) wf) x idx upd i
      = x i + ∑ e ∈ inEdges idx (i 0).val, upd (ix1 e) := by
  unfold Ideal.hostScatterAdd
  congr 1
  have hset : (Finset.univ.filter fun j : (⟨1,![E]⟩:Shape).Idx => (countDims (N := N) (E := E) wf).resultIdx? j idx = some i)
      = (inEdges idx (i 0).val).image (fun e => (ix1 e : (⟨1,![E]⟩:Shape).Idx)) := by
    ext j
    simp only [Finset.mem_filter, Finset.mem_univ, true_and, Finset.mem_image, inEdges, resultIdx_count_iff]
    constructor
    · intro hA
      exact ⟨j 0, hA, (eq_ix1 j).symm⟩
    · rintro ⟨e, he, rfl⟩
      exact he
  rw [hset, Finset.sum_image]
  intro a _ b _ hab
  exact congrArg (fun f : (⟨1,![E]⟩:Shape).Idx => f 0) hab

/-! ## The row gather -/

abbrev takeRowsDims (wf : GatherDims.WF (⟨2,![N,D]⟩ : Shape) ⟨2,![E,1]⟩ ⟨2,![E,D]⟩ [1] [0] [] [0] [] 1 ![1, D]) :
    GatherDims (⟨2,![N,D]⟩ : Shape) ⟨2,![E,1]⟩ ⟨2,![E,D]⟩ := GatherDims.mk [1] [0] [] [] [0] 1 ![1, D] wf

/-- The row gather read at an entry: the operand's entry in the edge's source row, same column. -/
theorem gather_rows_apply (hN : 0 < N) (wf) (x : Arr2 N D) (idx : EdgeWords E) (j : (⟨2,![E,D]⟩:Shape).Idx) :
    Host.gather (takeRowsDims (N := N) (E := E) (D := D) wf) x idx j = x (ix2 (srcRow N hN idx (j 0)) (j 1)) := by
  unfold Host.gather
  congr 1
  refine funext (Fin.forall_fin_two.2 ⟨Fin.ext ?_, Fin.ext ?_⟩)
  · show (takeRowsDims (N := N) (E := E) (D := D) wf).start j idx 0 + (takeRowsDims (N := N) (E := E) (D := D) wf).batchCoord j 0
        + (takeRowsDims (N := N) (E := E) (D := D) wf).offCoord j 0 = min (idx (ix2 (j 0) 0)).toInt.toNat (N - 1)
    have hs : (takeRowsDims (N := N) (E := E) (D := D) wf).start j idx 0 = min (idx (ix2 (j 0) 0)).toInt.toNat (N - 1) := by
      unfold GatherDims.start
      rw [dif_pos (show (0 : Fin 2) ∈ [(0 : Fin 2)] from by decide)]
      congr 3
      apply congrArg idx
      funext b
      match b with
      | ⟨0, _⟩ => rfl
      | ⟨1, _⟩ => rfl
    have hb : (takeRowsDims (N := N) (E := E) (D := D) wf).batchCoord j 0 = 0 := by
      unfold GatherDims.batchCoord
      exact dif_neg (show (0 : Fin 2) ∉ ([] : List (Fin 2)) from by decide)
    have ho : (takeRowsDims (N := N) (E := E) (D := D) wf).offCoord j 0 = 0 := by
      unfold GatherDims.offCoord
      exact dif_neg (show (0 : Fin 2) ∉ (List.finRange 2).filter (· ∉ [(0 : Fin 2)] ++ []) from by decide)
    rw [hs, hb, ho]; omega
  · show (takeRowsDims (N := N) (E := E) (D := D) wf).start j idx 1 + (takeRowsDims (N := N) (E := E) (D := D) wf).batchCoord j 1
        + (takeRowsDims (N := N) (E := E) (D := D) wf).offCoord j 1 = (j 1).val
    have hs : (takeRowsDims (N := N) (E := E) (D := D) wf).start j idx 1 = 0 := by
      unfold GatherDims.start
      exact dif_neg (show (1 : Fin 2) ∉ [(0 : Fin 2)] from by decide)
    have hb : (takeRowsDims (N := N) (E := E) (D := D) wf).batchCoord j 1 = 0 := by
      unfold GatherDims.batchCoord
      exact dif_neg (show (1 : Fin 2) ∉ ([] : List (Fin 2)) from by decide)
    have ho : (takeRowsDims (N := N) (E := E) (D := D) wf).offCoord j 1 = (j 1).val := by
      unfold GatherDims.offCoord
      exact (dif_pos (show (1 : Fin 2) ∈ (List.finRange 2).filter (· ∉ [(0 : Fin 2)] ++ []) from by decide)).trans rfl
    rw [hs, hb, ho]; omega

/-! ## The same three readings for any dimension record with these numbers -/

theorem Host_scatterAdd_rows (d : ScatterDims (⟨2,![N,D]⟩ : Shape) ⟨2,![E,1]⟩ ⟨2,![E,D]⟩)
    (h1 : d.updateWindowDims = [1]) (h2 : d.insertedWindowDims = [0]) (h3 : d.scatterDimsToOperandDims = [0])
    (h4 : d.indexVectorDim = 1) (x : Arr2 N D) (idx : EdgeWords E) (upd : Arr2 E D) (i : (⟨2,![N,D]⟩:Shape).Idx) :
    Host.scatterAdd (F := Ideal) (φ := .f32) d x idx upd i = x i + ∑ e ∈ inEdges idx (i 0).val, upd (ix2 e (i 1)) := by
  obtain ⟨uw, iw, sd, iv, wf⟩ := d
  simp only at h1 h2 h3 h4
  subst h1 h2 h3 h4
  exact scatterAdd_rows_apply wf x idx upd i

theorem Host_scatterAdd_count (d : ScatterDims (⟨1,![N]⟩ : Shape) ⟨2,![E,1]⟩ ⟨1,![E]⟩)
    (h1 : d.updateWindowDims = []) (h2 : d.insertedWindowDims = [0]) (h3 : d.scatterDimsToOperandDims = [0])
    (h4 : d.indexVectorDim = 1) (x : Arr1 N) (idx : EdgeWords E) (upd : Arr1 E) (i : (⟨1,![N]⟩:Shape).Idx) :
    Host.scatterAdd (F := Ideal) (φ := .f32) d x idx upd i = x i + ∑ e ∈ inEdges idx (i 0).val, upd (ix1 e) := by
  obtain ⟨uw, iw, sd, iv, wf⟩ := d
  simp only at h1 h2 h3 h4
  subst h1 h2 h3 h4
  exact scatterAdd_count_apply wf x idx upd i

theorem Host_gather_rows (hN : 0 < N) (d : GatherDims (⟨2,![N,D]⟩ : Shape) ⟨2,![E,1]⟩ ⟨2,![E,D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (x : Arr2 N D) (idx : EdgeWords E) (j : (⟨2,![E,D]⟩:Shape).Idx) :
    Host.gather d x idx j = x (ix2 (srcRow N hN idx (j 0)) (j 1)) := by
  obtain ⟨od, cd, ob, sb, sm, iv, ss, wf⟩ := d
  simp only at h1 h2 h3 h4 h5 h6 h7
  subst h1 h2 h3 h4 h5 h6 h7
  exact gather_rows_apply hN wf x idx j

/-! ## The edge list's two rows as index columns -/

/-- The destination words: row 1 of the edge list, one word per edge. -/
def dstWords (ei : (⟨2, ![2, E]⟩ : Shape).Idx → BitVec 32) : EdgeWords E := fun j => ei (ix2 1 (j 0))

/-- The source words: row 0 of the edge list, a negative word moved up by the number of nodes (the wrap of a
    negative index) and any other word kept. -/
def srcWords (ei : (⟨2, ![2, E]⟩ : Shape).Idx → BitVec 32) : EdgeWords E := fun j =>
  Scalar.select (IntOp.cmpi .slt (ei (ix2 0 (j 0))) 0#32) (IntOp.addi (ei (ix2 0 (j 0))) 100000#32) (ei (ix2 0 (j 0)))

end Cert.Gnn
end
-- ==== Proof.EdgeWords.lean ====
/-
  The two index columns the reference builds from the edge list: the gather reads rows by the source words
  (row 0 of the list, a negative word moved up by the number of nodes), and the scatters add into the rows named
  by the destination words (row 1 of the list).
-/
import proofs.«115833_j5841155522636_1_alg».proof.Proof.Gen.ReferenceIdeal.Read
import proofs.«115833_j5841155522636_1_alg».proof.Proof.EdgeOps

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The gather's index column is the source words of the edge list. -/
theorem srcWords_eq (x1 : (⟨S2x1600000, .i32⟩ : BufTy).Contents (Elt Ideal)) :
    Read.val_main_v13 (F := Ideal) x1 = Cert.Gnn.srcWords x1 := by
  funext j
  have e : Read.idx_main_v0 (Read.idx_main_v1 (Read.idx_main_v13 j)) = ix2 0 (j 0) := funext fun a => Fin.ext (by
    match a with
    | ⟨0, _⟩ => rfl
    | ⟨1, _⟩ => exact Nat.mod_eq_of_lt (j 0).isLt)
  rw [Read.val_main_v13_apply, Read.val_main_v12_apply, Read.val_main_v9_apply, Read.val_main_v11_apply,
    Read.val_main_v1_apply, Read.val_main_v0_apply, Read.val_main_v8_apply, Read.val_main_c_apply,
    Read.val_main_v10_apply, Read.val_main_c_0_apply, e]
  rfl

/-- The scatters' index column is the destination words of the edge list. -/
theorem dstWords_eq (x1 : (⟨S2x1600000, .i32⟩ : BufTy).Contents (Elt Ideal)) :
    Read.val_main_v17 (F := Ideal) x1 = Cert.Gnn.dstWords x1 := by
  funext j
  have e : Read.idx_main_v2 (Read.idx_main_v3 (Read.idx_main_v17 j)) = ix2 1 (j 0) := funext fun a => Fin.ext (by
    match a with
    | ⟨0, _⟩ => rfl
    | ⟨1, _⟩ => exact Nat.mod_eq_of_lt (j 0).isLt)
  rw [Read.val_main_v17_apply, Read.val_main_v3_apply, Read.val_main_v2_apply, e]
  rfl

end Cert.ReferenceIdeal.RefValue

end
-- ==== Proof.HostStages.lean ====
/-
  The kernel program's host stretches between its regions, as functions of the arrays they read: the edge list's
  two rows become the source and destination index columns; the reciprocal column is one over the clipped
  in-degree; the array a layer's region receives is, per node, the sum over its in-edges of the source rows.
-/
import proofs.«115833_j5841155522636_1_alg».proof.Proof.Gen.KernelIdeal
import proofs.«115833_j5841155522636_1_alg».proof.Proof.EdgeWords
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostStages

open Cert.KernelIdeal Idealize.ShloMosaic Idealize.ShloMosaic.TcCoe
open Idealize.ShloMosaic.ValueIdx
open Cert.KernelIdeal.Facts₀ Cert.KernelIdeal.Facts

/-- Row 0 of the edge list as a vector of words. -/
abbrev srcVec (ei : S2x1600000.Idx → BitVec 32) : S1600000.Idx → BitVec 32 :=
  shapeCast S1600000 (extractStridedSlice S1x1600000 ![0, 0] ei slices_S2x1600000_S1x1600000_0_0) shapeCasts_S1x1600000_S1600000
/-- Row 1 of the edge list as a vector of words. -/
abbrev dstVec (ei : S2x1600000.Idx → BitVec 32) : S1600000.Idx → BitVec 32 :=
  shapeCast S1600000 (extractStridedSlice S1x1600000 ![1, 0] ei slices_S2x1600000_S1x1600000_1_0) shapeCasts_S1x1600000_S1600000

/-- The word `0x3F800000` is the number one: sign plus, exponent field 127, fraction field 0. -/
theorem one_word : Ideal.ofBits .f32 0x3F800000#32 = 1 := by
  simp [Ideal.ofBits, Ideal.ieee]
  rw [← EReal.coe_mul]
  norm_num

/-- A scalar constant spread over any shape reads, everywhere, the number its word encodes. -/
theorem splat_apply {t : Shape} (hb : S_.BroadcastsInDim t ![]) (w : BitVec 32) (j : t.Idx) :
    broadcastInDim t ![] hb (constant (F := Ideal) S_ .f32 w) j = Ideal.ofBits .f32 w := rfl

/-- The host's quotient at an entry is the quotient of the entries. -/
theorem hostDivf_apply {s : Shape} (x y : FVec Ideal s .f32) (i : s.Idx) :
    Host.divf (F := Ideal) x y i = Ideal.div (x i) (y i) := rfl

/-- An `[a]` array cast to the column `[a, 1]` reads, at `(p, u)`, the operand at `p`. -/
theorem shapeCast_column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The destination column the scatters read is row 1 of the edge list, one word per edge. -/
theorem dstCol_eq (ei : S2x1600000.Idx → BitVec 32) :
    broadcastInDim S1600000x1 ![0] bcast_S1600000_S1600000x1_0 (dstVec ei) = Cert.Gnn.dstWords ei :=
  (show _ = Cert.ReferenceIdeal.Read.val_main_v17 (F := Ideal) ei from rfl).trans (Cert.ReferenceIdeal.RefValue.dstWords_eq ei)

/-- The source column the gathers read is row 0 of the edge list with a negative word moved up by the number of nodes. -/
theorem srcCol_eq (ei : S2x1600000.Idx → BitVec 32) :
    broadcastInDim S1600000x1 ![0] bcast_S1600000_S1600000x1_0
      (select (cmpi .slt (srcVec ei) (broadcastInDim S1600000 ![] bcast_S_S1600000 (constantI S_ 32 0#32)))
        (addi (srcVec ei) (broadcastInDim S1600000 ![] bcast_S_S1600000 (constantI S_ 32 100000#32))) (srcVec ei))
      = Cert.Gnn.srcWords ei :=
  (show _ = Cert.ReferenceIdeal.Read.val_main_v13 (F := Ideal) ei from rfl).trans (Cert.ReferenceIdeal.RefValue.srcWords_eq ei)

/-- The reciprocal column: one over the clipped in-degree of each node. -/
theorem invCol_eq (ei : S2x1600000.Idx → BitVec 32) :
    (shapeCast S100000x1
      (Host.divf (F := Ideal) (broadcastInDim S100000 ![] bcast_S_S100000 (constant S_ .f32 0x3F800000#32))
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstVec ei))
            (broadcastInDim S1600000 ![] bcast_S_S1600000 (constant S_ .f32 0x3F800000#32)))
          (broadcastInDim S100000 ![] bcast_S_S100000 (constant S_ .f32 0x3F800000#32))))
      shapeCasts_S100000_S100000x1 : S100000x1.Idx → EReal)
      = Cert.Gnn.invDeg (N := 100000) (Cert.Gnn.dstWords ei) := by
  funext i
  obtain ⟨n, u, rfl⟩ : ∃ (n : Fin 100000) (u : Fin 1), i = ix2 n u := ⟨i 0, i 1, eq_ix2 i⟩
  rw [dstCol_eq, shapeCast_column_apply, hostDivf_apply, maximumf_apply,
    Cert.Gnn.Host_scatterAdd_count _ rfl rfl rfl rfl]
  show Ideal.div (Ideal.ofBits .f32 0x3F800000#32)
      (max (Ideal.ofBits .f32 0x00000000#32
          + ∑ _e ∈ Cert.Gnn.inEdges (Cert.Gnn.dstWords ei) n.val, Ideal.ofBits .f32 0x3F800000#32)
        (Ideal.ofBits .f32 0x3F800000#32))
    = Ideal.div 1 (max (∑ _e ∈ Cert.Gnn.inEdges (Cert.Gnn.dstWords ei) n.val, 1) 1)
  rw [one_word, Ideal.ofBits_zero_f32, zero_add]

/-- What a layer's region receives: the source rows of `h` gathered per edge and summed into the destination nodes. -/
theorem agg_eq (h : S100000x128.Idx → EReal) (ei : S2x1600000.Idx → BitVec 32) :
    (Host.scatterAdd (F := Ideal) scatter_S100000x128_S1600000x1_S1600000x128_1_0_0_1
      (broadcastInDim S100000x128 ![] bcast_S_S100000x128 (constant S_ .f32 0x00000000#32))
      (broadcastInDim S1600000x1 ![0] bcast_S1600000_S1600000x1_0 (dstVec ei))
      (Host.gather gather_S100000x128_S1600000x1_S1600000x128_1_0_n_n_0_1_1128 h
        (broadcastInDim S1600000x1 ![0] bcast_S1600000_S1600000x1_0
          (select (cmpi .slt (srcVec ei) (broadcastInDim S1600000 ![] bcast_S_S1600000 (constantI S_ 32 0#32)))
            (addi (srcVec ei) (broadcastInDim S1600000 ![] bcast_S_S1600000 (constantI S_ 32 100000#32))) (srcVec ei))))
      : S100000x128.Idx → EReal)
      = Cert.Gnn.aggSum (N := 100000) (E := 1600000) (D := 128) (by decide) h (Cert.Gnn.srcWords ei) (Cert.Gnn.dstWords ei) := by
  funext i
  obtain ⟨n, d, rfl⟩ : ∃ (n : Fin 100000) (d : Fin 128), i = ix2 n d := ⟨i 0, i 1, eq_ix2 i⟩
  rw [dstCol_eq, srcCol_eq, Cert.Gnn.Host_scatterAdd_rows _ rfl rfl rfl rfl, splat_apply, Ideal.ofBits_zero_f32, zero_add]
  unfold Cert.Gnn.aggSum
  refine Finset.sum_congr rfl fun e _ => ?_
  exact Cert.Gnn.Host_gather_rows (by decide) _ rfl rfl rfl rfl rfl rfl rfl h (Cert.Gnn.srcWords ei) (ix2 e d)

end Cert.KernelIdeal.HostStages

end
-- ==== Proof.KernelValue.lean ====
/-
  The kernel program's result as the network's function of its arguments. The run's buffer contents at each
  boundary between host stretches and regions are read back, boundary by boundary: the embedding region leaves
  `x · W + b`; each host stretch gathers the source rows of the current node array and sums them into the
  destination nodes; each layer region applies the layer in the summed arrangement; the head leaves `h · W + b`.
-/
import proofs.«115833_j5841155522636_1_alg».proof.Proof.Gen.KernelIdeal.Frame
import proofs.«115833_j5841155522636_1_alg».proof.Proof.RegionEmbed
import proofs.«115833_j5841155522636_1_alg».proof.Proof.RegionConv1
import proofs.«115833_j5841155522636_1_alg».proof.Proof.RegionConv2
import proofs.«115833_j5841155522636_1_alg».proof.Proof.RegionHead
import proofs.«115833_j5841155522636_1_alg».proof.Proof.HostStages
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo
open Idealize.ShloMosaic.ValueIdx
open Cert.KernelIdeal.RegionValue Cert.KernelIdeal.HostStages

variable (m : (ℓ : Loc nD τ sig) → Buf (Elt Ideal) ℓ) (ρ : Dev nD → PrngReg)

/-- A buffer that a boundary's host stretch does not write and that is no array of the region before it holds
    what it held one boundary earlier; walked back until the launch memory or a named term is met. -/
macro "keep_through" : tactic => `(tactic| (repeat (first
   | rfl
   | (rw [W2_of_ne _ _ _ _ (by decide)])
   | (rw [W4_of_ne _ _ _ _ (by decide)])
   | (rw [W6_of_ne _ _ _ _ (by decide)])
   | (dsimp only [W1, W3, W5]; after_results))))

/-! ## The network's stages, named -/

/-- The edge list as launched. -/
abbrev edges (c : Dev nD) : S2x1600000.Idx → BitVec 32 := m ((c : Thread nD τ).loc main_arg1)

/-- The embedded node rows. -/
def emb (c : Dev nD) : Cert.Gnn.Arr2 100000 128 :=
  Cert.Gnn.affine (N := 100000) (K := 32) (M := 128) (m ((c : Thread nD τ).loc main_arg0)) (m ((c : Thread nD τ).loc main_arg2)) (m ((c : Thread nD τ).loc main_arg3))

/-- One graph layer in the summed arrangement over the launched edge list. -/
def layer (c : Dev nD) (h : Cert.Gnn.Arr2 100000 128) (Wrel Wroot : Cert.Gnn.Arr2 128 128) (b : Cert.Gnn.Arr1 128) : Cert.Gnn.Arr2 100000 128 :=
  Cert.Gnn.convSum (Cert.Gnn.aggSum (N := 100000) (E := 1600000) (D := 128) (by decide) h (Cert.Gnn.srcWords (edges m c)) (Cert.Gnn.dstWords (edges m c)))
    h (Cert.Gnn.invDeg (N := 100000) (Cert.Gnn.dstWords (edges m c))) Wrel Wroot b

/-- The node rows after the first layer. -/
def hid1 (c : Dev nD) : Cert.Gnn.Arr2 100000 128 :=
  layer m c (emb m c) (m ((c : Thread nD τ).loc main_arg4)) (m ((c : Thread nD τ).loc main_arg5)) (m ((c : Thread nD τ).loc main_arg6))

/-- The node rows after the second layer. -/
def hid2 (c : Dev nD) : Cert.Gnn.Arr2 100000 128 :=
  layer m c (hid1 m c) (m ((c : Thread nD τ).loc main_arg7)) (m ((c : Thread nD τ).loc main_arg8)) (m ((c : Thread nD τ).loc main_arg9))

/-- The network's output. -/
def result (c : Dev nD) : Cert.Gnn.Arr2 100000 16 :=
  Cert.Gnn.affine (N := 100000) (K := 128) (M := 16) (hid2 m c) (m ((c : Thread nD τ).loc main_arg10)) (m ((c : Thread nD τ).loc main_arg11))

/-! ## The first host stretch -/

theorem W1_src (c : Dev nD) : W1 (F := Ideal) m ρ c (Proc.devRef .tc main_v1) = srcVec (edges m c) := by
  dsimp only [W1]; after_results
  rfl

theorem W1_dst (c : Dev nD) : W1 (F := Ideal) m ρ c (Proc.devRef .tc main_v3) = dstVec (edges m c) := by
  dsimp only [W1]; after_results
  rfl

/-- The reciprocal column the first stretch computes. -/
theorem W1_inv (c : Dev nD) :
    W1 (F := Ideal) m ρ c (Proc.devRef .tc main_v12) = Cert.Gnn.invDeg (N := 100000) (Cert.Gnn.dstWords (edges m c)) := by
  dsimp only [W1]; after_results
  exact invCol_eq (edges m c)

/-! ## The embedding region -/

theorem V2_emb (c : Dev nD) : V2 (F := Ideal) m ρ c main_v13 = emb m c := by
  refine (W2_arr m ρ c 3).trans ((embed_array (V1 m ρ) c).trans ?_)
  have a0 : V1 (F := Ideal) m ρ c main_arg0 = m ((c : Thread nD τ).loc main_arg0) := by keep_through
  have a2 : V1 (F := Ideal) m ρ c main_arg2 = m ((c : Thread nD τ).loc main_arg2) := by keep_through
  have a3 : V1 (F := Ideal) m ρ c main_arg3 = m ((c : Thread nD τ).loc main_arg3) := by keep_through
  rw [a0, a2, a3]; rfl

/-! ## The second host stretch and the first layer -/

theorem W2_src (c : Dev nD) : W2 (F := Ideal) m ρ c (Proc.devRef .tc main_v1) = srcVec (edges m c) := by
  rw [W2_of_ne _ _ _ _ (by decide)]; exact W1_src m ρ c

theorem W2_dst (c : Dev nD) : W2 (F := Ideal) m ρ c (Proc.devRef .tc main_v3) = dstVec (edges m c) := by
  rw [W2_of_ne _ _ _ _ (by decide)]; exact W1_dst m ρ c

set_option maxHeartbeats 1000000 in
theorem V3_agg (c : Dev nD) :
    V3 (F := Ideal) m ρ c main_v23
      = Cert.Gnn.aggSum (N := 100000) (E := 1600000) (D := 128) (by decide) (emb m c) (Cert.Gnn.srcWords (edges m c)) (Cert.Gnn.dstWords (edges m c)) := by
  have e : V3 (F := Ideal) m ρ c main_v23 = (Host.scatterAdd (F := Ideal) scatter_S100000x128_S1600000x1_S1600000x128_1_0_0_1
      (broadcastInDim S100000x128 ![] bcast_S_S100000x128 (constant S_ .f32 0x00000000#32))
      (broadcastInDim S1600000x1 ![0] bcast_S1600000_S1600000x1_0 (W2 (F := Ideal) m ρ c (Proc.devRef .tc main_v3)))
      (Host.gather gather_S100000x128_S1600000x1_S1600000x128_1_0_n_n_0_1_1128 (W2 (F := Ideal) m ρ c (Proc.devRef .tc main_v13))
        (broadcastInDim S1600000x1 ![0] bcast_S1600000_S1600000x1_0
          (select (cmpi .slt (W2 (F := Ideal) m ρ c (Proc.devRef .tc main_v1)) (broadcastInDim S1600000 ![] bcast_S_S1600000 (constantI S_ 32 0#32)))
            (addi (W2 (F := Ideal) m ρ c (Proc.devRef .tc main_v1)) (broadcastInDim S1600000 ![] bcast_S_S1600000 (constantI S_ 32 100000#32)))
            (W2 (F := Ideal) m ρ c (Proc.devRef .tc main_v1)))))) := by
    dsimp only [V3, W3]; after_results
  rw [e, W2_src m ρ c, W2_dst m ρ c, show W2 (F := Ideal) m ρ c (Proc.devRef .tc main_v13) = emb m c from V2_emb m ρ c]
  exact agg_eq (emb m c) (edges m c)

theorem V3_inv (c : Dev nD) :
    V3 (F := Ideal) m ρ c main_v12 = Cert.Gnn.invDeg (N := 100000) (Cert.Gnn.dstWords (edges m c)) := by
  have e : V3 (F := Ideal) m ρ c main_v12 = W2 (F := Ideal) m ρ c (Proc.devRef .tc main_v12) := by
    dsimp only [V3, W3]; after_results
  rw [e, W2_of_ne _ _ _ _ (by decide)]; exact W1_inv m ρ c

theorem V3_emb (c : Dev nD) : V3 (F := Ideal) m ρ c main_v13 = emb m c := by
  have e : V3 (F := Ideal) m ρ c main_v13 = V2 (F := Ideal) m ρ c main_v13 := by
    dsimp only [V3, W3]; after_results
  rw [e]; exact V2_emb m ρ c

theorem V4_hid1 (c : Dev nD) : V4 (F := Ideal) m ρ c main_v24 = hid1 m c := by
  refine (W4_arr m ρ c 6).trans ((conv1_array (V3 m ρ) c).trans ?_)
  have a4 : V3 (F := Ideal) m ρ c main_arg4 = m ((c : Thread nD τ).loc main_arg4) := by keep_through
  have a5 : V3 (F := Ideal) m ρ c main_arg5 = m ((c : Thread nD τ).loc main_arg5) := by keep_through
  have a6 : V3 (F := Ideal) m ρ c main_arg6 = m ((c : Thread nD τ).loc main_arg6) := by keep_through
  rw [V3_agg m ρ c, V3_emb m ρ c, V3_inv m ρ c, a4, a5, a6]; rfl

/-! ## The third host stretch and the second layer -/

theorem V4_inv (c : Dev nD) :
    W4 (F := Ideal) m ρ c (Proc.devRef .tc main_v12) = Cert.Gnn.invDeg (N := 100000) (Cert.Gnn.dstWords (edges m c)) :=
  ((W4_arr m ρ c 2).trans (((dat1 (V3 m ρ) c).arrAt_in 2 rfl _).trans (A_eq1 (V3 m ρ) c 2))).trans (V3_inv m ρ c)

theorem W4_src (c : Dev nD) : W4 (F := Ideal) m ρ c (Proc.devRef .tc main_v1) = srcVec (edges m c) := by
  rw [W4_of_ne _ _ _ _ (by decide)]
  have e : W3 (F := Ideal) m ρ c (Proc.devRef .tc main_v1) = W2 (F := Ideal) m ρ c (Proc.devRef .tc main_v1) := by
    dsimp only [W3]; after_results
  rw [e]; exact W2_src m ρ c

theorem W4_dst (c : Dev nD) : W4 (F := Ideal) m ρ c (Proc.devRef .tc main_v3) = dstVec (edges m c) := by
  rw [W4_of_ne _ _ _ _ (by decide)]
  have e : W3 (F := Ideal) m ρ c (Proc.devRef .tc main_v3) = W2 (F := Ideal) m ρ c (Proc.devRef .tc main_v3) := by
    dsimp only [W3]; after_results
  rw [e]; exact W2_dst m ρ c

set_option maxHeartbeats 1000000 in
theorem V5_agg (c : Dev nD) :
    V5 (F := Ideal) m ρ c main_v34
      = Cert.Gnn.aggSum (N := 100000) (E := 1600000) (D := 128) (by decide) (hid1 m c) (Cert.Gnn.srcWords (edges m c)) (Cert.Gnn.dstWords (edges m c)) := by
  have e : V5 (F := Ideal) m ρ c main_v34 = (Host.scatterAdd (F := Ideal) scatter_S100000x128_S1600000x1_S1600000x128_1_0_0_1
      (broadcastInDim S100000x128 ![] bcast_S_S100000x128 (constant S_ .f32 0x00000000#32))
      (broadcastInDim S1600000x1 ![0] bcast_S1600000_S1600000x1_0 (W4 (F := Ideal) m ρ c (Proc.devRef .tc main_v3)))
      (Host.gather gather_S100000x128_S1600000x1_S1600000x128_1_0_n_n_0_1_1128 (W4 (F := Ideal) m ρ c (Proc.devRef .tc main_v24))
        (broadcastInDim S1600000x1 ![0] bcast_S1600000_S1600000x1_0
          (select (cmpi .slt (W4 (F := Ideal) m ρ c (Proc.devRef .tc main_v1)) (broadcastInDim S1600000 ![] bcast_S_S1600000 (constantI S_ 32 0#32)))
            (addi (W4 (F := Ideal) m ρ c (Proc.devRef .tc main_v1)) (broadcastInDim S1600000 ![] bcast_S_S1600000 (constantI S_ 32 100000#32)))
            (W4 (F := Ideal) m ρ c (Proc.devRef .tc main_v1)))))) := by
    dsimp only [V5, W5]; after_results
  rw [e, W4_src m ρ c, W4_dst m ρ c, show W4 (F := Ideal) m ρ c (Proc.devRef .tc main_v24) = hid1 m c from V4_hid1 m ρ c]
  exact agg_eq (hid1 m c) (edges m c)

theorem V5_inv (c : Dev nD) :
    V5 (F := Ideal) m ρ c main_v12 = Cert.Gnn.invDeg (N := 100000) (Cert.Gnn.dstWords (edges m c)) := by
  have e : V5 (F := Ideal) m ρ c main_v12 = W4 (F := Ideal) m ρ c (Proc.devRef .tc main_v12) := by
    dsimp only [V5, W5]; after_results
  rw [e]; exact V4_inv m ρ c

theorem V5_hid1 (c : Dev nD) : V5 (F := Ideal) m ρ c main_v24 = hid1 m c := by
  have e : V5 (F := Ideal) m ρ c main_v24 = V4 (F := Ideal) m ρ c main_v24 := by
    dsimp only [V5, W5]; after_results
  rw [e]; exact V4_hid1 m ρ c

theorem V6_hid2 (c : Dev nD) : V6 (F := Ideal) m ρ c main_v35 = hid2 m c := by
  refine (W6_arr m ρ c 6).trans ((Cert.KernelIdeal.RegionValue.Second.conv2_array (V5 m ρ) c).trans ?_)
  have a7 : V5 (F := Ideal) m ρ c main_arg7 = m ((c : Thread nD τ).loc main_arg7) := by keep_through
  have a8 : V5 (F := Ideal) m ρ c main_arg8 = m ((c : Thread nD τ).loc main_arg8) := by keep_through
  have a9 : V5 (F := Ideal) m ρ c main_arg9 = m ((c : Thread nD τ).loc main_arg9) := by keep_through
  rw [V5_agg m ρ c, V5_hid1 m ρ c, V5_inv m ρ c, a7, a8, a9]; rfl

/-! ## The head -/

/-- The result buffer after the run holds the network's output. -/
theorem W7_result (c : Dev nD) : W7 (F := Ideal) m ρ c (Proc.devRef .tc main_v36) = result m c := by
  refine (W7_arr m ρ c 3).trans ((head_array (V6 m ρ) c).trans ?_)
  have a10 : V6 (F := Ideal) m ρ c main_arg10 = m ((c : Thread nD τ).loc main_arg10) := by keep_through
  have a11 : V6 (F := Ideal) m ρ c main_arg11 = m ((c : Thread nD τ).loc main_arg11) := by keep_through
  rw [V6_hid2 m ρ c, a10, a11]; rfl

end Cert.KernelIdeal.KernelValue

end
-- ==== Proof.RefValue.lean ====
/-
  The reference's result as the network's function of its arguments: the embedding, two graph layers in the
  per-edge arrangement (the relation matrix applied to every gathered source row, the products summed into the
  destination nodes and divided by the clipped in-degree) and the output head.
-/
import proofs.«115833_j5841155522636_1_alg».proof.Proof.Gen.ReferenceIdeal.Read
import proofs.«115833_j5841155522636_1_alg».proof.Proof.EdgeOps
import proofs.«115833_j5841155522636_1_alg».proof.Proof.EdgeWords
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.Read

/-- An array of extended reals of shape `s`. -/
abbrev FArr (s : Shape) := (⟨s, .f32⟩ : BufTy).Contents (Elt Ideal)
/-- An array of 32-bit words of shape `s`. -/
abbrev WArr (s : Shape) := (⟨s, .i32⟩ : BufTy).Contents (Elt Ideal)

/-! ## The embedding -/

/-- The embedding stage is `x · W + b`. -/
theorem emb_eq (x0 : FArr S100000x32) (x2 : FArr S32x128) (x3 : FArr S128) :
    val_main_v7 (F := Ideal) x0 x2 x3 = Cert.Gnn.affine (N := 100000) (K := 32) (M := 128) x0 x2 x3 := by
  funext i
  have e1 : ∀ k : Fin 32, lidx_main_v4 i k = ix2 (i 0) k := fun k => funext fun a => Fin.ext (by
    match a with
    | ⟨0, _⟩ => rfl
    | ⟨1, _⟩ => rfl)
  have e2 : ∀ k : Fin 32, ridx_main_v4 i k = ix2 k (i 1) := fun k => funext fun a => Fin.ext (by
    match a with
    | ⟨0, _⟩ => rfl
    | ⟨1, _⟩ => rfl)
  have e3 : idx_main_v5 (idx_main_v6 i) = ix1 (i 1) := funext fun a => Fin.ext (by
    match a with
    | ⟨0, _⟩ => rfl)
  rw [val_main_v7_apply, val_main_v4_apply, val_main_v6_apply, val_main_v5_apply, Ideal.addf_def]
  unfold Cert.Gnn.affine
  simp only [e1, e2, e3]
  rfl

/-! ## The index columns of the later stages -/

/-- The second gather's index column is the source words again. -/
theorem src2_eq (x1 : WArr S2x1600000) : val_main_v39 (F := Ideal) x1 = Cert.Gnn.srcWords (E := 1600000) x1 :=
  (show val_main_v39 (F := Ideal) x1 = val_main_v13 (F := Ideal) x1 from rfl).trans (srcWords_eq x1)

/-- Every scatter's index column is the destination words. -/
theorem dst21_eq (x1 : WArr S2x1600000) : val_main_v21 (F := Ideal) x1 = Cert.Gnn.dstWords (E := 1600000) x1 := dstWords_eq x1
theorem dst43_eq (x1 : WArr S2x1600000) : val_main_v43 (F := Ideal) x1 = Cert.Gnn.dstWords (E := 1600000) x1 := dstWords_eq x1
theorem dst47_eq (x1 : WArr S2x1600000) : val_main_v47 (F := Ideal) x1 = Cert.Gnn.dstWords (E := 1600000) x1 := dstWords_eq x1

/-! ## The clipped in-degree -/

/-- The count scatter clipped below at one is the clipped in-degree. -/
theorem deg_eq (x1 : WArr S2x1600000) (n : S100000.Idx) :
    val_main_v24 (F := Ideal) x1 n = Cert.Gnn.degClip (Cert.Gnn.dstWords (E := 1600000) x1) (n 0).val := by
  rw [val_main_v24_apply, val_main_v23_apply, val_main_cst_3_apply]
  unfold val_main_v22
  rw [Cert.Gnn.Host_scatterAdd_count (N := 100000) (E := 1600000) scatter_S100000_S1600000x1_S1600000_n_0_0_1 rfl rfl rfl rfl]
  simp only [val_main_v20_apply, val_main_cst_2_apply, val_main_v19_apply, val_main_cst_1_apply, Ideal.ofBits_def,
    Ideal.ofBits_zero_f32, Ideal.ofBits_one_f32, zero_add, Ideal.maximumf_def, dst21_eq]
  rfl

/-- The divisor of the first layer, at an entry, is the clipped in-degree of the entry's node. -/
theorem div1_eq (x1 : WArr S2x1600000) (i : S100000x128.Idx) :
    val_main_v26 (F := Ideal) x1 i = Cert.Gnn.degClip (Cert.Gnn.dstWords (E := 1600000) x1) (i 0).val := by
  rw [val_main_v26_apply, val_main_v25_apply, deg_eq]

/-- The divisor of the second layer is the same. -/
theorem div2_eq (x1 : WArr S2x1600000) (i : S100000x128.Idx) :
    val_main_v52 (F := Ideal) x1 i = Cert.Gnn.degClip (Cert.Gnn.dstWords (E := 1600000) x1) (i 0).val :=
  (show val_main_v52 (F := Ideal) x1 i = val_main_v26 (F := Ideal) x1 i from rfl).trans (div1_eq x1 i)

/-- The first layer's scatter at an entry: the sum over the node's in-edges of the source rows times the relation matrix. -/
theorem scat1_eq (x0 : FArr S100000x32) (x1 : WArr S2x1600000) (x2 : FArr S32x128) (x3 : FArr S128) (x4 : FArr S128x128) (i : S100000x128.Idx) :
    val_main_v18 (F := Ideal) x0 x1 x2 x3 x4 i
      = ∑ e ∈ Cert.Gnn.inEdges (Cert.Gnn.dstWords (E := 1600000) x1) (i 0).val,
          ∑ k : Fin 128, val_main_v7 (F := Ideal) x0 x2 x3 (ix2 (Cert.Gnn.srcRow 100000 (by decide) (Cert.Gnn.srcWords (E := 1600000) x1) e) k)
            * x4 (ix2 k (i 1)) := by
  unfold val_main_v18
  rw [Cert.Gnn.Host_scatterAdd_rows (N := 100000) (E := 1600000) (D := 128)
    scatter_S100000x128_S1600000x1_S1600000x128_1_0_0_1 rfl rfl rfl rfl]
  rw [val_main_v16_apply, val_main_cst_apply, Ideal.ofBits_def, Ideal.ofBits_zero_f32, zero_add, dstWords_eq]
  refine Finset.sum_congr rfl fun e _ => ?_
  rw [val_main_v15_apply]
  refine Finset.sum_congr rfl fun k _ => ?_
  have el : lidx_main_v15 (ix2 e (i 1)) k = ix2 e k := funext fun a => Fin.ext (by
    match a with
    | ⟨0, _⟩ => rfl
    | ⟨1, _⟩ => rfl)
  have er : ridx_main_v15 (ix2 e (i 1)) k = ix2 k (i 1) := funext fun a => Fin.ext (by
    match a with
    | ⟨0, _⟩ => rfl
    | ⟨1, _⟩ => rfl)
  rw [el, er]
  unfold val_main_v14
  rw [Cert.Gnn.Host_gather_rows (N := 100000) (E := 1600000) (D := 128) (by decide)
    gather_S100000x128_S1600000x1_S1600000x128_1_0_n_n_0_1_1128 rfl rfl rfl rfl rfl rfl rfl, srcWords_eq]
  rfl

/-- The first layer is the per-edge arrangement over the embedding. -/
theorem layer1_eq (x0 : FArr S100000x32) (x1 : WArr S2x1600000) (x2 : FArr S32x128) (x3 : FArr S128) (x4 x5 : FArr S128x128) (x6 : FArr S128) :
    val_main_v33 (F := Ideal) x0 x1 x2 x3 x4 x5 x6
      = Cert.Gnn.convMsg (N := 100000) (E := 1600000) (D := 128) (by decide) (val_main_v7 (F := Ideal) x0 x2 x3)
          (Cert.Gnn.srcWords x1) (Cert.Gnn.dstWords x1) x4 x5 x6 := by
  funext i
  have e1 : ∀ k : Fin 128, lidx_main_v28 i k = ix2 (i 0) k := fun k => funext fun a => Fin.ext (by
    match a with
    | ⟨0, _⟩ => rfl
    | ⟨1, _⟩ => rfl)
  have e2 : ∀ k : Fin 128, ridx_main_v28 i k = ix2 k (i 1) := fun k => funext fun a => Fin.ext (by
    match a with
    | ⟨0, _⟩ => rfl
    | ⟨1, _⟩ => rfl)
  have e3 : idx_main_v30 (idx_main_v31 i) = ix1 (i 1) := funext fun a => Fin.ext (by
    match a with
    | ⟨0, _⟩ => rfl)
  rw [val_main_v33_apply, val_main_v32_apply, val_main_v29_apply, val_main_v27_apply, scat1_eq, div1_eq, val_main_v28_apply,
    val_main_v31_apply, val_main_v30_apply, val_main_call0_v0_apply, val_main_call0_cst_apply]
  simp only [Ideal.maximumf_def, Ideal.addf_def, Ideal.hostDivf_def, Ideal.ofBits_def, Ideal.ofBits_zero_f32, e1, e2, e3]
  rfl

/-- The second layer's scatter at an entry, over the first layer's rows. -/
theorem scat2_eq (x0 : FArr S100000x32) (x1 : WArr S2x1600000) (x2 : FArr S32x128) (x3 : FArr S128) (x4 x5 : FArr S128x128) (x6 : FArr S128) (x7 : FArr S128x128) (i : S100000x128.Idx) :
    val_main_v44 (F := Ideal) x0 x1 x2 x3 x4 x5 x6 x7 i
      = ∑ e ∈ Cert.Gnn.inEdges (Cert.Gnn.dstWords (E := 1600000) x1) (i 0).val,
          ∑ k : Fin 128, val_main_v33 (F := Ideal) x0 x1 x2 x3 x4 x5 x6 (ix2 (Cert.Gnn.srcRow 100000 (by decide) (Cert.Gnn.srcWords (E := 1600000) x1) e) k)
            * x7 (ix2 k (i 1)) := by
  unfold val_main_v44
  rw [Cert.Gnn.Host_scatterAdd_rows (N := 100000) (E := 1600000) (D := 128)
    scatter_S100000x128_S1600000x1_S1600000x128_1_0_0_1 rfl rfl rfl rfl]
  rw [val_main_v42_apply, val_main_cst_6_apply, Ideal.ofBits_def, Ideal.ofBits_zero_f32, zero_add, dst43_eq]
  refine Finset.sum_congr rfl fun e _ => ?_
  rw [val_main_v41_apply]
  refine Finset.sum_congr rfl fun k _ => ?_
  have el : lidx_main_v41 (ix2 e (i 1)) k = ix2 e k := funext fun a => Fin.ext (by
    match a with
    | ⟨0, _⟩ => rfl
    | ⟨1, _⟩ => rfl)
  have er : ridx_main_v41 (ix2 e (i 1)) k = ix2 k (i 1) := funext fun a => Fin.ext (by
    match a with
    | ⟨0, _⟩ => rfl
    | ⟨1, _⟩ => rfl)
  rw [el, er]
  unfold val_main_v40
  rw [Cert.Gnn.Host_gather_rows (N := 100000) (E := 1600000) (D := 128) (by decide)
    gather_S100000x128_S1600000x1_S1600000x128_1_0_n_n_0_1_1128 rfl rfl rfl rfl rfl rfl rfl, src2_eq]
  rfl

/-- The second layer is the per-edge arrangement over the first layer. -/
theorem layer2_eq (x0 : FArr S100000x32) (x1 : WArr S2x1600000) (x2 : FArr S32x128) (x3 : FArr S128) (x4 x5 : FArr S128x128) (x6 : FArr S128) (x7 x8 : FArr S128x128) (x9 : FArr S128) :
    val_main_v59 (F := Ideal) x0 x1 x2 x3 x4 x5 x6 x7 x8 x9
      = Cert.Gnn.convMsg (N := 100000) (E := 1600000) (D := 128) (by decide) (val_main_v33 (F := Ideal) x0 x1 x2 x3 x4 x5 x6)
          (Cert.Gnn.srcWords x1) (Cert.Gnn.dstWords x1) x7 x8 x9 := by
  funext i
  have e1 : ∀ k : Fin 128, lidx_main_v54 i k = ix2 (i 0) k := fun k => funext fun a => Fin.ext (by
    match a with
    | ⟨0, _⟩ => rfl
    | ⟨1, _⟩ => rfl)
  have e2 : ∀ k : Fin 128, ridx_main_v54 i k = ix2 k (i 1) := fun k => funext fun a => Fin.ext (by
    match a with
    | ⟨0, _⟩ => rfl
    | ⟨1, _⟩ => rfl)
  have e3 : idx_main_v56 (idx_main_v57 i) = ix1 (i 1) := funext fun a => Fin.ext (by
    match a with
    | ⟨0, _⟩ => rfl)
  rw [val_main_v59_apply, val_main_v58_apply, val_main_v55_apply, val_main_v53_apply, scat2_eq, div2_eq, val_main_v54_apply,
    val_main_v57_apply, val_main_v56_apply, val_main_call1_v0_apply, val_main_call1_cst_apply]
  simp only [Ideal.maximumf_def, Ideal.addf_def, Ideal.hostDivf_def, Ideal.ofBits_def, Ideal.ofBits_zero_f32, e1, e2, e3]
  rfl

/-! ## The output head and the whole run -/

/-- The head is `h · W + b` over the second layer. -/
theorem head_eq (x0 : FArr S100000x32) (x1 : WArr S2x1600000) (x2 : FArr S32x128) (x3 : FArr S128) (x4 x5 : FArr S128x128) (x6 : FArr S128)
    (x7 x8 : FArr S128x128) (x9 : FArr S128) (x10 : FArr S128x16) (x11 : FArr S16) :
    val_main_v63 (F := Ideal) x0 x1 x2 x3 x4 x5 x6 x7 x8 x9 x10 x11
      = Cert.Gnn.affine (N := 100000) (K := 128) (M := 16) (val_main_v59 (F := Ideal) x0 x1 x2 x3 x4 x5 x6 x7 x8 x9) x10 x11 := by
  funext i
  have e1 : ∀ k : Fin 128, lidx_main_v60 i k = ix2 (i 0) k := fun k => funext fun a => Fin.ext (by
    match a with
    | ⟨0, _⟩ => rfl
    | ⟨1, _⟩ => rfl)
  have e2 : ∀ k : Fin 128, ridx_main_v60 i k = ix2 k (i 1) := fun k => funext fun a => Fin.ext (by
    match a with
    | ⟨0, _⟩ => rfl
    | ⟨1, _⟩ => rfl)
  have e3 : idx_main_v61 (idx_main_v62 i) = ix1 (i 1) := funext fun a => Fin.ext (by
    match a with
    | ⟨0, _⟩ => rfl)
  rw [val_main_v63_apply, val_main_v60_apply, val_main_v62_apply, val_main_v61_apply, Ideal.addf_def]
  unfold Cert.Gnn.affine
  simp only [e1, e2, e3]
  rfl

/-- The reference run's result term, at the ideal instance, is the network of Spec.lean in the per-edge arrangement. -/
theorem result_eq (m : (ℓ : Loc nD τ sig) → Buf (Elt Ideal) ℓ) (c : Dev nD) :
    Cert.ReferenceIdeal.Value.res_main_v63 (F := Ideal) m c
      = Cert.Gnn.affine (N := 100000) (K := 128) (M := 16)
          (Cert.Gnn.convMsg (N := 100000) (E := 1600000) (D := 128) (by decide)
            (Cert.Gnn.convMsg (N := 100000) (E := 1600000) (D := 128) (by decide)
              (Cert.Gnn.affine (N := 100000) (K := 32) (M := 128)
                (m ((c.tc : Thread nD τ).loc main_arg0)) (m ((c.tc : Thread nD τ).loc main_arg2)) (m ((c.tc : Thread nD τ).loc main_arg3)))
              (Cert.Gnn.srcWords (m ((c.tc : Thread nD τ).loc main_arg1))) (Cert.Gnn.dstWords (m ((c.tc : Thread nD τ).loc main_arg1)))
              (m ((c.tc : Thread nD τ).loc main_arg4)) (m ((c.tc : Thread nD τ).loc main_arg5)) (m ((c.tc : Thread nD τ).loc main_arg6)))
            (Cert.Gnn.srcWords (m ((c.tc : Thread nD τ).loc main_arg1))) (Cert.Gnn.dstWords (m ((c.tc : Thread nD τ).loc main_arg1)))
            (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) := by
  rw [val_main_v63_eq, head_eq, layer2_eq, layer1_eq, emb_eq]

end Cert.ReferenceIdeal.RefValue

end
-- ==== Proof.Finite.lean ====
/-
  The precondition read: where every float input's absolute values are below +inf, every entry of those inputs is
  a real number.
-/
import proofs.«115833_j5841155522636_1_alg».proof.Defs
import proofs.«115833_j5841155522636_1_alg».proof.Proof.Gen.KernelIdeal
import proofs.«115833_j5841155522636_1_alg».proof.Proof.Gen.Pre_finite_inputs
import proofs.«115833_j5841155522636_1_alg».proof.Proof.Spec
import Idealize.ShloMosaic.Lib.ReduceAll

noncomputable section

namespace Cert.Proof.Finite

open Idealize.ShloMosaic Idealize.SL.Sem Cert.KernelIdeal

/-- The rank-0 shape has one index. -/
instance : Subsingleton Cert.Pre_finite_inputs.S_.Idx := ⟨fun a b => funext fun d => d.elim0⟩

/-- The pattern with all exponent bits set and no fraction bits denotes `+∞`. -/
theorem inf_eq_top : Ideal.ofBits .f32 0x7F800000#32 = (⊤ : EReal) := by
  simp [Ideal.ofBits, Ideal.ieee]

/-- An extended real whose absolute value `max x (-x)` lies strictly below `+∞` is a real number:
    at `⊥` and at `⊤` the absolute value is `⊤`, which is not below itself. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One conjunct of the precondition, for an array of any shape: where the conjunction over all entries of
    `|x| < +∞` is the word 1, every entry of `x` is a real number. -/
theorem allReal_of_all {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] bc (constant Cert.Pre_finite_inputs.S_ .f32 0x7F800000#32)))
        (constantI Cert.Pre_finite_inputs.S_ 1 1#1) rd hu j = 1#1) :
    Cert.Gnn.AllReal x := fun i =>
  real_of_abs_lt_inf (x i) (Host.reduce_andi_all _ _ rd hu j e i)

/-- Under the precondition the seven float inputs the layers' exchange of sums needs real — the features, the embedding
    matrix and bias, the first layer's two matrices and bias, the second layer's relation matrix — are real, entry by entry. -/
theorem allReal_of_pre (m : (ℓ : Loc nD τ sig) → Buf (Elt Ideal) ℓ) (h : Cert.Pre_KernelIdeal m) (c : Dev nD) :
    Cert.Gnn.AllReal (m ((c.tc : Thread nD τ).loc main_arg0))
    ∧ Cert.Gnn.AllReal (m ((c.tc : Thread nD τ).loc main_arg2))
    ∧ Cert.Gnn.AllReal (m ((c.tc : Thread nD τ).loc main_arg3))
    ∧ Cert.Gnn.AllReal (m ((c.tc : Thread nD τ).loc main_arg4))
    ∧ Cert.Gnn.AllReal (m ((c.tc : Thread nD τ).loc main_arg5))
    ∧ Cert.Gnn.AllReal (m ((c.tc : Thread nD τ).loc main_arg6))
    ∧ Cert.Gnn.AllReal (m ((c.tc : Thread nD τ).loc main_arg7)) := by
  -- The predicate's one word is the conjunction, nested to the left, of eleven words, one per float input in the
  -- inputs' order; it is 1 exactly where each of them is 1. The first seven are the inputs named here.
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e2⟩, e3⟩, e4⟩, e5⟩, e6⟩, e7⟩, _⟩, _⟩, _⟩, _⟩ := h0
  exact ⟨allReal_of_all _ _ _ _ _ e0, allReal_of_all _ _ _ _ _ e2, allReal_of_all _ _ _ _ _ e3,
    allReal_of_all _ _ _ _ _ e4, allReal_of_all _ _ _ _ _ e5, allReal_of_all _ _ _ _ _ e6,
    allReal_of_all _ _ _ _ _ e7⟩

end Cert.Proof.Finite

end
-- ==== Proof.lean ====
/-
  The certificate of the graph network: a node embedding, two graph layers with mean aggregation over the
  in-edges, and a linear head, the kernel program against its reference over the extended reals.

  The three frames are the generated ones (the reference's is its generated run with the result dropped), and the
  idealization rewrote nothing. For the value claim both programs end at one function of the arguments. The
  kernel program sums the gathered source rows into the destination nodes, multiplies by the reciprocal of the
  clipped in-degree and then by the relation matrix; the reference multiplies every gathered row by the relation
  matrix, sums the products and divides by the clipped in-degree. Finite sums of real numbers commute with each
  other and with a constant factor, and under the precondition every entry that reaches a layer is real (the
  embedding of real inputs is real, and so is a layer of real arrays), so the two arrangements agree layer by
  layer; everything else (the embedding, the root product, the bias, the clip at zero, the head) is the same
  term on both sides.
-/
import proofs.«115833_j5841155522636_1_alg».proof.Defs
import proofs.«115833_j5841155522636_1_alg».proof.Proof.Gen.Kernel
import proofs.«115833_j5841155522636_1_alg».proof.Proof.Gen.Kernel.Skeleton
import proofs.«115833_j5841155522636_1_alg».proof.Proof.Gen.Kernel.Launch
import proofs.«115833_j5841155522636_1_alg».proof.Proof.Gen.Kernel.Points
import proofs.«115833_j5841155522636_1_alg».proof.Proof.Gen.Kernel.Frame
import proofs.«115833_j5841155522636_1_alg».proof.Proof.Gen.KernelIdeal
import proofs.«115833_j5841155522636_1_alg».proof.Proof.Gen.KernelIdeal.Skeleton
import proofs.«115833_j5841155522636_1_alg».proof.Proof.Gen.KernelIdeal.Launch
import proofs.«115833_j5841155522636_1_alg».proof.Proof.Gen.KernelIdeal.Points
import proofs.«115833_j5841155522636_1_alg».proof.Proof.Gen.KernelIdeal.Frame
import proofs.«115833_j5841155522636_1_alg».proof.Proof.Gen.ReferenceIdeal
import proofs.«115833_j5841155522636_1_alg».proof.Proof.Gen.ReferenceIdeal.Run
import proofs.«115833_j5841155522636_1_alg».proof.Proof.Gen.ReferenceIdeal.Read
import proofs.«115833_j5841155522636_1_alg».proof.Proof.Gen.Pre_finite_inputs
import proofs.«115833_j5841155522636_1_alg».proof.Proof.SpecLaws
import proofs.«115833_j5841155522636_1_alg».proof.Proof.KernelRun
import proofs.«115833_j5841155522636_1_alg».proof.Proof.KernelValue
import proofs.«115833_j5841155522636_1_alg».proof.Proof.RefValue
import proofs.«115833_j5841155522636_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.Gnn in
/-- Over real inputs the network in the per-edge arrangement is the network in the summed arrangement: the
    embedding is real, so the first layers agree; the first layer of real arrays is real, so the second agree. -/
theorem network_eq {x : Arr2 100000 32} {Wemb : Arr2 32 128} {bemb : Arr1 128} {W1rel W1root : Arr2 128 128} {b1 : Arr1 128}
    {W2rel : Arr2 128 128} (W2root : Arr2 128 128) (b2 : Arr1 128) (Wout : Arr2 128 16) (bout : Arr1 16)
    (sidx didx : EdgeWords 1600000)
    (hx : AllReal x) (hWemb : AllReal Wemb) (hbemb : AllReal bemb) (hW1rel : AllReal W1rel) (hW1root : AllReal W1root)
    (hb1 : AllReal b1) (hW2rel : AllReal W2rel) :
    affine (convMsg (N := 100000) (by decide) (convMsg (N := 100000) (by decide) (affine x Wemb bemb) sidx didx W1rel W1root b1)
        sidx didx W2rel W2root b2) Wout bout
      = affine (convSum (aggSum (N := 100000) (by decide)
            (convSum (aggSum (N := 100000) (by decide) (affine x Wemb bemb) sidx didx) (affine x Wemb bemb) (invDeg didx) W1rel W1root b1) sidx didx)
          (convSum (aggSum (N := 100000) (by decide) (affine x Wemb bemb) sidx didx) (affine x Wemb bemb) (invDeg didx) W1rel W1root b1)
          (invDeg didx) W2rel W2root b2) Wout bout := by
  have hEmb : AllReal (affine x Wemb bemb) := AllReal.affine hx hWemb hbemb
  have hHid : AllReal (convSum (aggSum (N := 100000) (by decide) (affine x Wemb bemb) sidx didx) (affine x Wemb bemb) (invDeg didx) W1rel W1root b1) :=
    AllReal.convSum (AllReal.aggSum _ hEmb sidx didx) hEmb (AllReal.invDeg didx) hW1rel hW1root hb1
  rw [convMsg_eq_convSum _ hEmb sidx didx hW1rel W1root b1, convMsg_eq_convSum _ hHid sidx didx hW2rel W2root b2]

/-- From memories agreeing on the arguments both programs end with the network's output in their result buffer:
    the kernel program by its run read back boundary by boundary, the reference by its generated run, the two
    arrangements joined by `network_eq` under the precondition's finiteness. -/
theorem algebraic : Cert.algebraic_KernelIdeal_ReferenceIdeal := by
  intro m ρ m' ρ' hpre hagree
  refine ⟨fun c => Cert.KernelIdeal.KernelValue.result m c, ?_, ?_⟩
  · exact (θ_run Cert.KernelIdeal.defs _ _).mono
      (fun r h c => ⟨(h c).1.trans (Cert.KernelIdeal.KernelValue.W7_result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    obtain ⟨r0, r2, r3, r4, r5, r6, r7⟩ := Cert.Proof.Finite.allReal_of_pre m hpre c
    rw [Cert.ReferenceIdeal.RefValue.result_eq m' c, e0, e1, e2, e3, e4, e5, e6, e7, e8, e9, e10, e11]
    exact network_eq _ _ _ _ _ _ r0 r2 r3 r4 r5 r6 r7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
